-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x2048 : Shape := ⟨3, ![4, 512, 2048]⟩
abbrev S512x512 : Shape := ⟨2, ![512, 512]⟩
abbrev S512 : Shape := ⟨1, ![512]⟩
abbrev S_ : Shape := ⟨0, ![]⟩

class Facts : Prop where
  bcast_S_S4x512x2048 : S_.BroadcastsInDim S4x512x2048 (![] : Fin 0 → Fin S4x512x2048.rank)
  reducesTo_S4x512x2048_S_d0_1_2 : S4x512x2048.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S4x512x2048 .f32) (main_arg1 : FVec F S4x512x2048 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S4x512x2048 .f32 := Host.absf main_arg0
  let main_cst : FVec F S_ .f32 := constant S_ .f32 0x7F800000#32
  let main_v1 : FVec F S4x512x2048 .f32 := broadcastInDim S4x512x2048 ![] bcast_S_S4x512x2048 main_cst
  let main_v2 : IVec S4x512x2048 1 := cmpf .olt main_v0 main_v1
  let main_c : IVec S_ 1 := constantI S_ 1 1#1
  let main_v3 : IVec S_ 1 := (fun x v => Host.reduce IntOp.andi x v reducesTo_S4x512x2048_S_d0_1_2 h_S_) main_v2 main_c
  let main_v4 : FVec F S4x512x2048 .f32 := Host.absf main_arg1
  let main_cst_0 : FVec F S_ .f32 := constant S_ .f32 0x7F800000#32
  let main_v5 : FVec F S4x512x2048 .f32 := broadcastInDim S4x512x2048 ![] bcast_S_S4x512x2048 main_cst_0
  let main_v6 : IVec S4x512x2048 1 := cmpf .olt main_v4 main_v5
  let main_c_1 : IVec S_ 1 := constantI S_ 1 1#1
  let main_v7 : IVec S_ 1 := (fun x v => Host.reduce IntOp.andi x v reducesTo_S4x512x2048_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4x512x2048 : Shape := ⟨3, ![4, 512, 2048]⟩
abbrev S512x512 : Shape := ⟨2, ![512, 512]⟩
abbrev S512 : Shape := ⟨1, ![512]⟩
abbrev S4x2048x512 : Shape := ⟨3, ![4, 2048, 512]⟩
abbrev S1x512x512 : Shape := ⟨3, ![1, 512, 512]⟩
abbrev S1x512 : Shape := ⟨2, ![1, 512]⟩
abbrev S4x2048x8x64 : Shape := ⟨4, ![4, 2048, 8, 64]⟩
abbrev S4x8x2048x64 : Shape := ⟨4, ![4, 8, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512x1 : Shape := ⟨2, ![512, 1]⟩

abbrev nBuf : Space → Nat
  | .hbm => 30
  | .vmem => 24
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S4x2048x512, .f32⟩
  | .hbm, ⟨9, _⟩ => ⟨S4x2048x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S4x2048x512, .bf16⟩
  | .hbm, ⟨14, _⟩ => ⟨S4x2048x512, .bf16⟩
  | .hbm, ⟨15, _⟩ => ⟨S4x2048x512, .bf16⟩
  | .hbm, ⟨16, _⟩ => ⟨S4x2048x8x64, .bf16⟩
  | .hbm, ⟨17, _⟩ => ⟨S4x8x2048x64, .bf16⟩
  | .hbm, ⟨18, _⟩ => ⟨S4x2048x8x64, .bf16⟩
  | .hbm, ⟨19, _⟩ => ⟨S4x8x2048x64, .bf16⟩
  | .hbm, ⟨20, _⟩ => ⟨S4x2048x8x64, .bf16⟩
  | .hbm, ⟨21, _⟩ => ⟨S4x8x2048x64, .bf16⟩
  | .hbm, ⟨22, _⟩ => ⟨S32x2048x64, .bf16⟩
  | .hbm, ⟨23, _⟩ => ⟨S32x2048x64, .bf16⟩
  | .hbm, ⟨24, _⟩ => ⟨S32x2048x64, .bf16⟩
  | .hbm, ⟨25, _⟩ => ⟨S32x2048x64, .f32⟩
  | .hbm, ⟨26, _⟩ => ⟨S4x8x2048x64, .f32⟩
  | .hbm, ⟨27, _⟩ => ⟨S4x2048x8x64, .f32⟩
  | .hbm, ⟨28, _⟩ => ⟨S4x2048x512, .f32⟩
  | .hbm, ⟨29, _⟩ => ⟨S4x512x2048, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x64, .bf16⟩
  | .local _ .vmem, ⟨17, _⟩ => ⟨S1x512x64, .bf16⟩
  | .local _ .vmem, ⟨18, _⟩ => ⟨S1x2048x64, .bf16⟩
  | .local _ .vmem, ⟨19, _⟩ => ⟨S1x2048x64, .bf16⟩
  | .local _ .vmem, ⟨20, _⟩ => ⟨S1x2048x64, .bf16⟩
  | .local _ .vmem, ⟨21, _⟩ => ⟨S1x2048x64, .bf16⟩
  | .local _ .vmem, ⟨22, _⟩ => ⟨S1x512x64, .f32⟩
  | .local _ .vmem, ⟨23, _⟩ => ⟨S1x512x64, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S4x512x2048_S4x2048x512_0_2_1 : S4x512x2048.Transposes [0, 2, 1] S4x2048x512
  transposes_S512x512_S512x512_1_0 : S512x512.Transposes [1, 0] S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S512x512_S1x512x512 : S512x512.ShapeCasts S1x512x512
  packedbf16_S1x512x512_S1x512x512_0_0_0 : (Rect.unit (s := S1x512x512) ![0, 0, 0] S1x512x512.size inb_S1x512x512_S1x512x512_0_0_0).PackedRows (EltTy.packing .bf16)
  shapeCasts_S4x2048x512_S4x2048x8x64 : S4x2048x512.ShapeCasts S4x2048x8x64
  transposes_S4x2048x8x64_S4x8x2048x64_0_2_1_3 : S4x2048x8x64.Transposes [0, 2, 1, 3] S4x8x2048x64
  shapeCasts_S4x8x2048x64_S32x2048x64 : S4x8x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S32x2048x64_S4x8x2048x64 : S32x2048x64.ShapeCasts S4x8x2048x64
  transposes_S4x8x2048x64_S4x2048x8x64_0_2_1_3 : S4x8x2048x64.Transposes [0, 2, 1, 3] S4x2048x8x64
  shapeCasts_S4x2048x8x64_S4x2048x512 : S4x2048x8x64.ShapeCasts S4x2048x512
  transposes_S4x2048x512_S4x512x2048_0_2_1 : S4x2048x512.Transposes [0, 2, 1] S4x512x2048
  dot_S512x512_S512x512_S512x512_1_0_0_1_n_n_wf : DotDims.WF S512x512 S512x512 S512x512 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x2048x512.size a
  hwx0_0 : ∀ i : grid0.Coords, EltTy.bits .f32 = 32 ∨ (Rect.block (s := S4x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x2048x512.size a
  hwx0_1 : ∀ i : grid0.Coords, EltTy.bits .f32 = 32 ∨ (Rect.block (s := S4x2048x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x512.size a ≤ S4x2048x512.size a
  hwx0_8 : ∀ i : grid0.Coords, EltTy.bits .bf16 = 32 ∨ (Rect.block (s := S4x2048x512) S1x512x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x512.size a ≤ S4x2048x512.size a
  hwx0_9 : ∀ i : grid0.Coords, EltTy.bits .bf16 = 32 ∨ (Rect.block (s := S4x2048x512) S1x512x512.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x512.size a ≤ S4x2048x512.size a
  hwx0_10 : ∀ i : grid0.Coords, EltTy.bits .bf16 = 32 ∨ (Rect.block (s := S4x2048x512) S1x512x512.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .f32 = 32 ∨ (Rect.block (s := S32x2048x64) S1x512x64.size (cc1_transform_3 i) (hinb1_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S1x512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S1x512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_2) S1x512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v12) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x512x2048 : Shape := ⟨3, ![4, 512, 2048]⟩
abbrev S512x512 : Shape := ⟨2, ![512, 512]⟩
abbrev S512 : Shape := ⟨1, ![512]⟩
abbrev S4x2048x512 : Shape := ⟨3, ![4, 2048, 512]⟩
abbrev S1x1x512 : Shape := ⟨3, ![1, 1, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S4x2048x512, .f32⟩
  | .hbm, ⟨9, _⟩ => ⟨S4x2048x512, .f32⟩
  | .hbm, ⟨10, _⟩ => ⟨S4x2048x512, .f32⟩
  | .hbm, ⟨11, _⟩ => ⟨S1x1x512, .f32⟩
  | .hbm, ⟨12, _⟩ => ⟨S4x2048x512, .f32⟩
  | .hbm, ⟨13, _⟩ => ⟨S4x2048x512, .f32⟩
  | .hbm, ⟨14, _⟩ => ⟨S4x2048x8x64, .f32⟩
  | .hbm, ⟨15, _⟩ => ⟨S4x8x2048x64, .f32⟩
  | .hbm, ⟨16, _⟩ => ⟨S4x2048x512, .f32⟩
  | .hbm, ⟨17, _⟩ => ⟨S1x1x512, .f32⟩
  | .hbm, ⟨18, _⟩ => ⟨S4x2048x512, .f32⟩
  | .hbm, ⟨19, _⟩ => ⟨S4x2048x512, .f32⟩
  | .hbm, ⟨20, _⟩ => ⟨S4x2048x8x64, .f32⟩
  | .hbm, ⟨21, _⟩ => ⟨S4x8x2048x64, .f32⟩
  | .hbm, ⟨22, _⟩ => ⟨S4x2048x512, .f32⟩
  | .hbm, ⟨23, _⟩ => ⟨S1x1x512, .f32⟩
  | .hbm, ⟨24, _⟩ => ⟨S4x2048x512, .f32⟩
  | .hbm, ⟨25, _⟩ => ⟨S4x2048x512, .f32⟩
  | .hbm, ⟨26, _⟩ => ⟨S4x2048x8x64, .f32⟩
  | .hbm, ⟨27, _⟩ => ⟨S4x8x2048x64, .f32⟩
  | .hbm, ⟨28, _⟩ => ⟨S4x8x2048x2048, .f32⟩
  | .hbm, ⟨29, _⟩ => ⟨S_, .f32⟩
  | .hbm, ⟨30, _⟩ => ⟨S_, .f32⟩
  | .hbm, ⟨31, _⟩ => ⟨S4x8x2048x2048, .f32⟩
  | .hbm, ⟨32, _⟩ => ⟨S4x8x2048x2048, .f32⟩
  | .hbm, ⟨33, _⟩ => ⟨S_, .f32⟩
  | .hbm, ⟨34, _⟩ => ⟨S4x8x2048, .f32⟩
  | .hbm, ⟨35, _⟩ => ⟨S_, .f32⟩
  | .hbm, ⟨36, _⟩ => ⟨S4x8x2048, .f32⟩
  | .hbm, ⟨37, _⟩ => ⟨S4x8x2048, .f32⟩
  | .hbm, ⟨38, _⟩ => ⟨S4x8x2048x1, .f32⟩
  | .hbm, ⟨39, _⟩ => ⟨S4x8x2048x2048, .f32⟩
  | .hbm, ⟨40, _⟩ => ⟨S4x8x2048x2048, .f32⟩
  | .hbm, ⟨41, _⟩ => ⟨S4x8x2048x2048, .f32⟩
  | .hbm, ⟨42, _⟩ => ⟨S_, .f32⟩
  | .hbm, ⟨43, _⟩ => ⟨S4x8x2048, .f32⟩
  | .hbm, ⟨44, _⟩ => ⟨S4x8x2048x1, .f32⟩
  | .hbm, ⟨45, _⟩ => ⟨S4x8x2048x2048, .f32⟩
  | .hbm, ⟨46, _⟩ => ⟨S4x8x2048x2048, .f32⟩
  | .hbm, ⟨47, _⟩ => ⟨S4x8x2048x64, .f32⟩
  | .hbm, ⟨48, _⟩ => ⟨S4x2048x8x64, .f32⟩
  | .hbm, ⟨49, _⟩ => ⟨S4x2048x512, .f32⟩
  | .hbm, ⟨50, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  transposes_S4x512x2048_S4x2048x512_0_2_1 : S4x512x2048.Transposes [0, 2, 1] S4x2048x512
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  shapeCasts_S4x2048x512_S4x2048x8x64 : S4x2048x512.ShapeCasts S4x2048x8x64
  transposes_S4x2048x8x64_S4x8x2048x64_0_2_1_3 : S4x2048x8x64.Transposes [0, 2, 1, 3] S4x8x2048x64
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x64_S4x2048x8x64_0_2_1_3 : S4x8x2048x64.Transposes [0, 2, 1, 3] S4x2048x8x64
  shapeCasts_S4x2048x8x64_S4x2048x512 : S4x2048x8x64.ShapeCasts S4x2048x512
  transposes_S4x2048x512_S4x512x2048_0_2_1 : S4x2048x512.Transposes [0, 2, 1] S4x512x2048
  dot_S4x2048x512_S512x512_S4x2048x512_2_1_01_0_n_n_wf : DotDims.WF S4x2048x512 S512x512 S4x2048x512 [2] [1] [0, 1] [0] [] []
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x2048x512_S512x512_S4x2048x512_2_1_01_0_n_n : DotDims S4x2048x512 S512x512 S4x2048x512 where
  lhsContracting := [2]
  rhsContracting := [1]
  lhsNonContracting := [0, 1]
  rhsNonContracting := [0]
  lhsBatch := []
  rhsBatch := []
  wf := dot_S4x2048x512_S512x512_S4x2048x512_2_1_01_0_n_n_wf
def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.R0Body.lean ====
/-
  The projection kernel's three stored values, read at one entry. With the format changes the identity and the matrix
  product into a zero accumulator the plain sum of products, the value stored for row r and feature d is the row of the
  activation block against column d of the weight block, plus the bias at d.
-/
import proofs.«121241_j24678882083069_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R0Body

open Cert.KernelIdeal Cert.KernelIdeal.Gen
open Idealize.ShloMosaic Idealize.ShloMosaic.ValueIdx

/-- One entry of one projection: a sum over the 512 input features, plus the bias. -/
def lin (x : Vec Ideal S1x512x512 .f32) (w : Vec Ideal S512x512 .f32) (b : Vec Ideal S512 .f32) (r d : Fin 512) : EReal :=
  (∑ k : Fin 512, x (ix3 (0 : Fin 1) r k) * w (ix2 k d)) + b (ix1 d)

/-- The matrix product's left operand is read at the output's row: its axis 0 is the kept axis. -/
private theorem lhs_dot_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl

/-- The left operand's axis 1 is the contracted one. -/
private theorem lhs_dot_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q

/-- The right operand's axis 0 is the contracted one. -/
private theorem rhs_dot_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q

/-- The right operand is read at the output's column: its axis 1 is the kept axis. -/
private theorem rhs_dot_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product of two 512 × 512 matrices into a zero accumulator, at one entry: the row against the column. -/
private theorem mm_apply (A B : FVec Ideal S512x512 .bf16) (r d : Fin 512) :
    FloatOps.matmul dot_S512x512_S512x512_S512x512_1_0_0_1_n_n none A B (constant S512x512 .f32 0x00000000#32) (ix2 r d)
      = ∑ k : Fin 512, A (ix2 r k) * B (ix2 k d) := by
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r d) ((contrEquiv1 dot_S512x512_S512x512_S512x512_1_0_0_1_n_n 512 rfl rfl).symm k) = ix2 r k := funext fun a => Fin.ext (by
    match a with
    | ⟨0, _⟩ => exact lhs_dot_0 _ _
    | ⟨1, _⟩ => exact (lhs_dot_1 _ _).trans hk)
  have er : dot_S512x512_S512x512_S512x512_1_0_0_1_n_n.rhsIdx (ix2 r d) ((contrEquiv1 dot_S512x512_S512x512_S512x512_1_0_0_1_n_n 512 rfl rfl).symm k) = ix2 k d := funext fun a => Fin.ext (by
    match a with
    | ⟨0, _⟩ => exact (rhs_dot_0 _ _).trans hk
    | ⟨1, _⟩ => exact rhs_dot_1 _ _)
  rw [el, er]

/-- The shared shape of the three stored values: a product into zero, plus the bias broadcast along the rows, viewed as
    a one-block array. -/
private theorem core (A B : FVec Ideal S512x512 .bf16) (b : Vec Ideal S512 .f32) (u : Fin 1) (r d : Fin 512) :
    shapeCast S1x512x512 (truncf .bf16 (addf (matmul dot_S512x512_S512x512_S512x512_1_0_0_1_n_n none A B (constant S512x512 .f32 0x00000000#32))
      (broadcastTo S512x512 (shapeCast S1x512 b shapeCasts_S512_S1x512) broadcasts_S1x512_S512x512)) bitsLt_bf16_f32)
      shapeCasts_S512x512_S1x512x512 (ix3 u r d)
      = (∑ k : Fin 512, A (ix2 r k) * B (ix2 k d)) + b (ix1 d) := by
  rw [shapeCast_ab_1ab_apply]
  show FloatOps.matmul dot_S512x512_S512x512_S512x512_1_0_0_1_n_n none A B (constant S512x512 .f32 0x00000000#32) (ix2 r d)
      + broadcastTo S512x512 (shapeCast S1x512 b shapeCasts_S512_S1x512) broadcasts_S1x512_S512x512 (ix2 r d) = _
  rw [mm_apply, broadcastTo_1b_ab_apply, shapeCast_a_1a_apply]

theorem pay_q (x0 : Vec Ideal S1x512x512 .f32) (x2 : Vec Ideal S512x512 .f32) (x3 : Vec Ideal S512 .f32) (u : Fin 1) (r d : Fin 512) :
    k0_pay3 (F := Ideal) x0 x2 x3 (ix3 u r d) = lin x0 x2 x3 r d := by
  unfold k0_pay3 lin
  refine (core _ _ x3 u r d).trans ?_
  rw [shapeCast_self]
  congr 1
  refine Finset.sum_congr rfl fun k _ => ?_
  show shapeCast S512x512 x0 shapeCasts_S1x512x512_S512x512 (ix2 r k) * x2 (ix2 k d) = _
  rw [shapeCast_1ab_ab_apply]

theorem pay_k (x1 : Vec Ideal S1x512x512 .f32) (x4 : Vec Ideal S512x512 .f32) (x5 : Vec Ideal S512 .f32) (u : Fin 1) (r d : Fin 512) :
    k0_pay4 (F := Ideal) x1 x4 x5 (ix3 u r d) = lin x1 x4 x5 r d := by
  unfold k0_pay4 k0_pay2 lin
  refine (core _ _ x5 u r d).trans ?_
  rw [shapeCast_self]
  congr 1
  refine Finset.sum_congr rfl fun k _ => ?_
  show shapeCast S512x512 x1 shapeCasts_S1x512x512_S512x512 (ix2 r k) * x4 (ix2 k d) = _
  rw [shapeCast_1ab_ab_apply]

theorem pay_v (x1 : Vec Ideal S1x512x512 .f32) (x6 : Vec Ideal S512x512 .f32) (x7 : Vec Ideal S512 .f32) (u : Fin 1) (r d : Fin 512) :
    k0_pay1 (F := Ideal) (k0_pay2 x1) (k0_pay5 x6) x7 (ix3 u r d) = lin x1 x6 x7 r d := by
  unfold k0_pay1 k0_pay2 k0_pay5 lin
  refine (core _ _ x7 u r d).trans ?_
  rw [shapeCast_self]
  congr 1
  refine Finset.sum_congr rfl fun k _ => ?_
  show shapeCast S512x512 x1 shapeCasts_S1x512x512_S512x512 (ix2 r k) * x6 (ix2 k d) = _
  rw [shapeCast_1ab_ab_apply]

end Cert.KernelIdeal.R0Body

end
-- ==== Proof.Spec.lean ====
/-
  What the two programs compute, stated once over the extended reals and free of either program's text.

  * `proj a w b`: a linear layer over rows. Entry (p, l, d) is the sum over k of `a (p, l, k) * w (k, d)`, plus `b d`
    (`w` is the weight already laid out input-major).
  * `softAtt s v`: one output entry of softmax attention for one query row: with scores `s j` over the keys and one
    column `v j` of the values it is the sum over j of softmax(s) j * v j, the softmax taken as the program text takes it:
    the row maximum (folded from minus infinity and joined with minus infinity once more), the exponentials of the
    shifted scores, their sum, the quotient.
  * `att3`: attention over arrays laid out [batch * head, position, feature]; `att4`: the same over
    [batch, head, position, feature]. Scores are the dot products of a query row with the key rows times `scale`.
  * `div_sqrt64`: dividing by the square root of 64 is multiplying by 1/8, on every extended real, so the kernel's
    factor 0.125 and the reference's divisor sqrt 64 give one score.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The pattern of minus infinity, as both programs spell the neutral element of a maximum. -/
def negInf : EReal := Ideal.ofBits .f32 0xFF800000#32

/-- The kernel's score factor, the pattern of 0.125. -/
def scale : EReal := Ideal.ofBits .f32 0x3E000000#32

/-- One entry of a linear layer: row (p, l) of `a` against column d of `w`, plus the bias at d. -/
def projAt (a : (⟨3, ![4, 2048, 512]⟩ : Shape).Idx → EReal) (w : (⟨2, ![512, 512]⟩ : Shape).Idx → EReal)
    (b : (⟨1, ![512]⟩ : Shape).Idx → EReal) (p : Fin 4) (l : Fin 2048) (d : Fin 512) : EReal :=
  (∑ k : Fin 512, a (ix3 p l k) * w (ix2 k d)) + b (ix1 d)

/-- The linear layer as a whole array. -/
def proj (a : (⟨3, ![4, 2048, 512]⟩ : Shape).Idx → EReal) (w : (⟨2, ![512, 512]⟩ : Shape).Idx → EReal)
    (b : (⟨1, ![512]⟩ : Shape).Idx → EReal) : (⟨3, ![4, 2048, 512]⟩ : Shape).Idx → EReal :=
  fun i => projAt a w b (i 0) (i 1) (i 2)

/-- A row's maximum as the programs take it: the fold of `max` from minus infinity, joined with minus infinity. -/
def rowMax (s : Fin 2048 → EReal) : EReal :=
  max negInf ((Finset.univ : Finset (Fin 2048)).fold max negInf s)

/-- The exponential of a score shifted by its row's maximum. -/
def expShift (s : Fin 2048 → EReal) (j : Fin 2048) : EReal := Ideal.exp (s j - rowMax s)

/-- One softmax weight. -/
def softmaxAt (s : Fin 2048 → EReal) (j : Fin 2048) : EReal :=
  Ideal.div (expShift s j) (∑ j' : Fin 2048, expShift s j')

/-- One output entry of attention for one query row: the softmax weights of the scores against a value column. -/
def softAtt (s v : Fin 2048 → EReal) : EReal := ∑ j : Fin 2048, softmaxAt s j * v j

/-- Attention over [batch * head, position, feature] arrays. -/
def att3 (q k v : (⟨3, ![32, 2048, 64]⟩ : Shape).Idx → EReal) : (⟨3, ![32, 2048, 64]⟩ : Shape).Idx → EReal :=
  fun i => softAtt (fun j => (∑ e : Fin 64, q (ix3 (i 0) (i 1) e) * k (ix3 (i 0) j e)) * scale) (fun j => v (ix3 (i 0) j (i 2)))

/-- Attention over [batch, head, position, feature] arrays. -/
def att4 (q k v : (⟨4, ![4, 8, 2048, 64]⟩ : Shape).Idx → EReal) : (⟨4, ![4, 8, 2048, 64]⟩ : Shape).Idx → EReal :=
  fun i => softAtt (fun j => (∑ e : Fin 64, q (ix4 (i 0) (i 1) (i 2) e) * k (ix4 (i 0) (i 1) j e)) * scale)
    (fun j => v (ix4 (i 0) (i 1) j (i 3)))

/-- The pattern 0x42800000 denotes 64. -/
theorem ofBits_64 : Ideal.ofBits .f32 0x42800000#32 = ((64 : ℝ) : EReal) := by
  simp [Ideal.ofBits, Ideal.ieee, -EReal.coe_mul]; norm_num

/-- The pattern 0x3E000000 denotes 1/8. -/
theorem scale_eq : scale = (((1 / 8 : ℝ)) : EReal) := by
  unfold scale
  simp [Ideal.ofBits, Ideal.ieee, -EReal.coe_mul]; norm_num

/-- Dividing by the square root of 64 is multiplying by 1/8, on every extended real. -/
theorem div_sqrt64 (x : EReal) : Ideal.div x (Ideal.sqrt (Ideal.ofBits .f32 0x42800000#32)) = x * scale := by
  rw [ofBits_64, Ideal.sqrt_coe, if_neg (by norm_num), scale_eq]
  have h8 : Real.sqrt 64 = 8 := by
    rw [show (64 : ℝ) = 8 ^ 2 by norm_num]
    exact Real.sqrt_sq (by norm_num)
  rw [h8]
  exact Ideal.div_coe (by norm_num) x

end Cert.Spec

end
-- ==== Proof.R0Value.lean ====
/-
  What the projection region leaves in its three result arrays, for any contents `V` the region is entered with: each
  is the linear layer `Spec.proj` of the activation array, the weight array and the bias array the region reads.
  Grid point (b, t) writes rows 512 t … 512 t + 511 of batch b; the 16 points tile the [4, 2048, 512] arrays.

  Per result array the argument has four steps. The block index maps are decided once over the 16 points: the activation's
  block sits where the result's block sits, the weight and the bias are read whole. One entry of what a point writes is
  the body's value there, a row of the activation block against a column of the weight plus the bias, and each factor is
  the array's entry at the row's place in the array, so the entry is `Spec.proj` at its place in the array. An index lies
  in a point's block exactly when each coordinate lies in the block's range, and entry (b, l, d) lies in the block of the
  point (b, l / 512), so the blocks cover the array and the array ends holding `Spec.proj` everywhere.
-/
import proofs.«121241_j24678882083069_1_alg».proof.Proof.Gen.KernelIdeal.Frame
import proofs.«121241_j24678882083069_1_alg».proof.Proof.R0Body
import proofs.«121241_j24678882083069_1_alg».proof.Proof.Spec

set_option maxRecDepth 16384

noncomputable section

namespace Cert.KernelIdeal.R0Value

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offset vectors of the whole-block accesses, as constant functions. -/
private theorem hz3 : (![0, 0, 0] : Fin 3 → Nat) = fun _ => 0 := funext fun a => by fin_cases a <;> rfl
private theorem hz2 : (![0, 0] : Fin 2 → Nat) = fun _ => 0 := funext fun a => by fin_cases a <;> rfl
private theorem hz1 : (![0] : Fin 1 → Nat) = fun _ => 0 := funext fun a => by fin_cases a <;> rfl

/-- The linear layer at an index whose coordinates are known by value. -/
private theorem proj_at (A : (⟨3, ![4, 2048, 512]⟩ : Shape).Idx → EReal) (W : (⟨2, ![512, 512]⟩ : Shape).Idx → EReal)
    (B : (⟨1, ![512]⟩ : Shape).Idx → EReal) (i : (⟨3, ![4, 2048, 512]⟩ : Shape).Idx) (p : Fin 4) (l : Fin 2048) (d : Fin 512)
    (h0 : (i 0).val = p.val) (h1 : (i 1).val = l.val) (h2 : (i 2).val = d.val) :
    Cert.Spec.proj A W B i = Cert.Spec.projAt A W B p l d := by
  show Cert.Spec.projAt A W B (i 0) (i 1) (i 2) = _
  rw [show (i 0 : Fin 4) = p from Fin.ext h0, show (i 1 : Fin 2048) = l from Fin.ext h1, show (i 2 : Fin 512) = d from Fin.ext h2]

/-- The printed index maps over the 16 grid points: the activation's block moves with the first result's block on the
    batch and row axes, every block sits at 0 on the feature axis, the weight and the bias are whole arrays, and the
    result's block indices stay below 4. -/
private theorem idx_facts8 : ∀ t : Fin cfg0.N,
    win0_0.index t (0 : Fin 3) = win0_8.index t (0 : Fin 3)
    ∧ win0_0.index t (1 : Fin 3) = win0_8.index t (1 : Fin 3)
    ∧ win0_0.index t (2 : Fin 3) = 0
    ∧ win0_8.index t (2 : Fin 3) = 0
    ∧ win0_2.index t (0 : Fin 2) = 0 ∧ win0_2.index t (1 : Fin 2) = 0
    ∧ win0_3.index t (0 : Fin 1) = 0
    ∧ win0_8.index t (0 : Fin 3) ≤ 3 ∧ win0_8.index t (1 : Fin 3) ≤ 3 :=
  (by decide +kernel : ∀ t : Fin grid0.N, _)

/-- Row r, column k of the activation block at point t is entry (p, l, k) of the activation array, (p, l) the
    row's place in the array. -/
private theorem read_a8 (c : Dev nD) (t : Fin cfg0.N) (r k : Fin 512) (p : Fin 4) (l : Fin 2048)
    (hp : p.val = win0_8.index t (0 : Fin 3)) (hl : l.val = win0_8.index t (1 : Fin 3) * 512 + r.val) :
    iblk0 V c 0 t (ix3 (0 : Fin 1) r k) = V c main_v0 (ix3 p l k) := by
  obtain ⟨e0, e1, e2, e3, e4, e5, e6, e7, e8⟩ := idx_facts8 t
  unfold iblk0
  rw [View.read_apply]
  show V c main_v0 (((cfg0.win 0).blk t).view.emb (ix3 (0 : Fin 1) r k)) = V c main_v0 (ix3 p l k)
  congr 1
  funext a; apply Fin.ext
  match a with
  | ⟨0, _⟩ => show win0_0.index t (0 : Fin 3) * 1 + 1 * (0 : Fin 1).val = p.val; rw [hp, e0]; show _ * 1 + 1 * 0 = _; omega
  | ⟨1, _⟩ => show win0_0.index t (1 : Fin 3) * 512 + 1 * r.val = l.val; rw [hl, e1]; omega
  | ⟨2, _⟩ => show win0_0.index t (2 : Fin 3) * 512 + 1 * k.val = k.val; rw [e2]; omega

/-- The weight block at any point is the weight array. -/
private theorem read_w8 (c : Dev nD) (t : Fin cfg0.N) (k d : Fin 512) :
    iblk0 V c 2 t (ix2 k d) = V c main_v2 (ix2 k d) := by
  obtain ⟨e0, e1, e2, e3, e4, e5, e6, e7, e8⟩ := idx_facts8 t
  unfold iblk0
  rw [View.read_apply]
  show V c main_v2 (((cfg0.win 2).blk t).view.emb (ix2 k d)) = V c main_v2 (ix2 k d)
  congr 1
  funext a; apply Fin.ext
  match a with
  | ⟨0, _⟩ => show win0_2.index t (0 : Fin 2) * 512 + 1 * k.val = k.val; rw [e4]; omega
  | ⟨1, _⟩ => show win0_2.index t (1 : Fin 2) * 512 + 1 * d.val = d.val; rw [e5]; omega

/-- The bias block at any point is the bias array. -/
private theorem read_b8 (c : Dev nD) (t : Fin cfg0.N) (d : Fin 512) :
    iblk0 V c 3 t (ix1 d) = V c main_arg3 (ix1 d) := by
  obtain ⟨e0, e1, e2, e3, e4, e5, e6, e7, e8⟩ := idx_facts8 t
  unfold iblk0
  rw [View.read_apply]
  show V c main_arg3 (((cfg0.win 3).blk t).view.emb (ix1 d)) = V c main_arg3 (ix1 d)
  congr 1
  funext a; apply Fin.ext
  match a with
  | ⟨0, _⟩ => show win0_3.index t (0 : Fin 1) * 512 + 1 * d.val = d.val; rw [e6]; omega

/-- One entry of what point t leaves in the first result's block: the linear layer at the entry's place in the array. -/
private theorem cell8 (c : Dev nD) (t : Fin cfg0.N) (j : S1x512x512.Idx) :
    k0_pay3 (F := Ideal) (iblk0 V c 0 t) (iblk0 V c 2 t) (iblk0 V c 3 t) j
      = Cert.Spec.proj (V c main_v0) (V c main_v2) (V c main_arg3) (((cfg0.win 8).blk t).view.emb j) := by
  obtain ⟨u, r, d, rfl⟩ : ∃ (u : Fin 1) (r : Fin 512) (d : Fin 512), j = ix3 u r d := ⟨j 0, j 1, j 2, eq_ix3 j⟩
  obtain ⟨e0, e1, e2, e3, e4, e5, e6, e7, e8⟩ := idx_facts8 t
  have hu : u.val = 0 := by have := u.isLt; omega
  have hr : r.val < 512 := r.isLt
  have hP : Cert.Spec.proj (V c main_v0) (V c main_v2) (V c main_arg3) (((cfg0.win 8).blk t).view.emb (ix3 u r d))
      = Cert.Spec.projAt (V c main_v0) (V c main_v2) (V c main_arg3) ⟨win0_8.index t (0 : Fin 3), by omega⟩
          ⟨win0_8.index t (1 : Fin 3) * 512 + r.val, by omega⟩ d := by
    refine proj_at _ _ _ _ _ _ _ ?_ ?_ ?_
    · show win0_8.index t (0 : Fin 3) * 1 + 1 * u.val = win0_8.index t (0 : Fin 3); omega
    · show win0_8.index t (1 : Fin 3) * 512 + 1 * r.val = win0_8.index t (1 : Fin 3) * 512 + r.val; omega
    · show win0_8.index t (2 : Fin 3) * 512 + 1 * d.val = d.val; omega
  rw [hP, R0Body.pay_q]
  unfold R0Body.lin Cert.Spec.projAt
  congr 1
  · refine Finset.sum_congr rfl fun k _ => ?_
    rw [read_a8 V c t r k ⟨win0_8.index t (0 : Fin 3), by omega⟩ ⟨win0_8.index t (1 : Fin 3) * 512 + r.val, by omega⟩ rfl rfl, read_w8 V c t k d]
  · exact read_b8 V c t d

/-- What point t writes back to the first result array is block t of the linear layer of the arrays the region reads. -/
private theorem flushed8_eq (c : Dev nD) (t : Fin cfg0.N) :
    (dat0 (F := Ideal) V c).flushed 8 t = ((cfg0.win 8).blk t).view.read (Elt Ideal) (Cert.Spec.proj (V c main_v0) (V c main_v2) (V c main_arg3)) := by
  show (cfg0.win 8).cut (grid0.coords t) ((dat0 V c).after 8 t) = _
  rw [after0_8]
  unfold out0_8
  rw [View.canon_unit_zero hz3]
  simp only [View.ld_unit_zero (S := S1x512x512) hz3, View.ld_unit_zero (S := S512x512) hz2, View.ld_unit_zero (S := S512) hz1]
  funext j
  exact cell8 V c t j

/-- An index of the array is in point t's block iff each coordinate is in the block's range on its axis. -/
private theorem mem_blk8 (t : Fin cfg0.N) (i : S4x2048x512.Idx) :
    i ∈ ((cfg0.win 8).blk t).view.set ↔ ∀ a : Fin 3, win0_8.index t a * S1x512x512.size a ≤ (i a).val ∧ (i a).val < win0_8.index t a * S1x512x512.size a + S1x512x512.size a := by
  show i ∈ ((View.whole main_v5_0).slice (win0_8.rect t)).set ↔ _
  rw [View.set_slice_whole, Rect.mem_set_unit]
  exact Iff.rfl

/-- Every (batch, row block) pair is some grid point's. -/
private theorem idx_onto8 : ∀ (q0 : Fin 4) (q1 : Fin 4), ∃ t : Fin cfg0.N, win0_8.index t = ![q0.val, q1.val, 0] :=
  (by decide +kernel : ∀ (q0 : Fin 4) (q1 : Fin 4), ∃ t : Fin grid0.N, win0_8.index t = ![q0.val, q1.val, 0])

/-- Entry (b, l, d) of the first result array lies in the block of the point with coordinates (b, l / 512). -/
private theorem cover8 (i : S4x2048x512.Idx) : ∃ t : Fin cfg0.N, (cfg0.win 8).flush t = true ∧ i ∈ ((cfg0.win 8).blk t).view.set := by
  have hi0 : (i 0).val < 4 := (i 0).isLt
  have hi1 : (i 1).val < 2048 := (i 1).isLt
  have hi2 : (i 2).val < 512 := (i 2).isLt
  obtain ⟨t, ht⟩ := idx_onto8 ⟨(i 0).val, by omega⟩ ⟨(i 1).val / 512, by omega⟩
  have q0 : win0_8.index t (0 : Fin 3) = (i 0).val := congrFun ht 0
  have q1 : win0_8.index t (1 : Fin 3) = (i 1).val / 512 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 512 ≤ (i 2).val ∧ (i 2).val < win0_8.index t (2 : Fin 3) * 512 + 512; omega

theorem arr_q (c : Dev nD) :
    (dat0 (F := Ideal) V c).arrAt 8 cfg0.N = Cert.Spec.proj (V c main_v0) (V c main_v2) (V c main_arg3) :=
  (dat0 V c).arrAt_eq_of_cover 8 _ (fun t _ => flushed8_eq V c t) cover8

/-- The printed index maps over the 16 grid points: the activation's block moves with the second result's block on the
    batch and row axes, every block sits at 0 on the feature axis, the weight and the bias are whole arrays, and the
    result's block indices stay below 4. -/
private theorem idx_facts9 : ∀ t : Fin cfg0.N,
    win0_1.index t (0 : Fin 3) = win0_9.index t (0 : Fin 3)
    ∧ win0_1.index t (1 : Fin 3) = win0_9.index t (1 : Fin 3)
    ∧ win0_1.index t (2 : Fin 3) = 0
    ∧ win0_9.index t (2 : Fin 3) = 0
    ∧ win0_4.index t (0 : Fin 2) = 0 ∧ win0_4.index t (1 : Fin 2) = 0
    ∧ win0_5.index t (0 : Fin 1) = 0
    ∧ win0_9.index t (0 : Fin 3) ≤ 3 ∧ win0_9.index t (1 : Fin 3) ≤ 3 :=
  (by decide +kernel : ∀ t : Fin grid0.N, _)

/-- Row r, column k of the activation block at point t is entry (p, l, k) of the activation array, (p, l) the
    row's place in the array. -/
private theorem read_a9 (c : Dev nD) (t : Fin cfg0.N) (r k : Fin 512) (p : Fin 4) (l : Fin 2048)
    (hp : p.val = win0_9.index t (0 : Fin 3)) (hl : l.val = win0_9.index t (1 : Fin 3) * 512 + r.val) :
    iblk0 V c 1 t (ix3 (0 : Fin 1) r k) = V c main_v1 (ix3 p l k) := by
  obtain ⟨e0, e1, e2, e3, e4, e5, e6, e7, e8⟩ := idx_facts9 t
  unfold iblk0
  rw [View.read_apply]
  show V c main_v1 (((cfg0.win 1).blk t).view.emb (ix3 (0 : Fin 1) r k)) = V c main_v1 (ix3 p l k)
  congr 1
  funext a; apply Fin.ext
  match a with
  | ⟨0, _⟩ => show win0_1.index t (0 : Fin 3) * 1 + 1 * (0 : Fin 1).val = p.val; rw [hp, e0]; show _ * 1 + 1 * 0 = _; omega
  | ⟨1, _⟩ => show win0_1.index t (1 : Fin 3) * 512 + 1 * r.val = l.val; rw [hl, e1]; omega
  | ⟨2, _⟩ => show win0_1.index t (2 : Fin 3) * 512 + 1 * k.val = k.val; rw [e2]; omega

/-- The weight block at any point is the weight array. -/
private theorem read_w9 (c : Dev nD) (t : Fin cfg0.N) (k d : Fin 512) :
    iblk0 V c 4 t (ix2 k d) = V c main_v3 (ix2 k d) := by
  obtain ⟨e0, e1, e2, e3, e4, e5, e6, e7, e8⟩ := idx_facts9 t
  unfold iblk0
  rw [View.read_apply]
  show V c main_v3 (((cfg0.win 4).blk t).view.emb (ix2 k d)) = V c main_v3 (ix2 k d)
  congr 1
  funext a; apply Fin.ext
  match a with
  | ⟨0, _⟩ => show win0_4.index t (0 : Fin 2) * 512 + 1 * k.val = k.val; rw [e4]; omega
  | ⟨1, _⟩ => show win0_4.index t (1 : Fin 2) * 512 + 1 * d.val = d.val; rw [e5]; omega

/-- The bias block at any point is the bias array. -/
private theorem read_b9 (c : Dev nD) (t : Fin cfg0.N) (d : Fin 512) :
    iblk0 V c 5 t (ix1 d) = V c main_arg5 (ix1 d) := by
  obtain ⟨e0, e1, e2, e3, e4, e5, e6, e7, e8⟩ := idx_facts9 t
  unfold iblk0
  rw [View.read_apply]
  show V c main_arg5 (((cfg0.win 5).blk t).view.emb (ix1 d)) = V c main_arg5 (ix1 d)
  congr 1
  funext a; apply Fin.ext
  match a with
  | ⟨0, _⟩ => show win0_5.index t (0 : Fin 1) * 512 + 1 * d.val = d.val; rw [e6]; omega

/-- One entry of what point t leaves in the second result's block: the linear layer at the entry's place in the array. -/
private theorem cell9 (c : Dev nD) (t : Fin cfg0.N) (j : S1x512x512.Idx) :
    k0_pay4 (F := Ideal) (iblk0 V c 1 t) (iblk0 V c 4 t) (iblk0 V c 5 t) j
      = Cert.Spec.proj (V c main_v1) (V c main_v3) (V c main_arg5) (((cfg0.win 9).blk t).view.emb j) := by
  obtain ⟨u, r, d, rfl⟩ : ∃ (u : Fin 1) (r : Fin 512) (d : Fin 512), j = ix3 u r d := ⟨j 0, j 1, j 2, eq_ix3 j⟩
  obtain ⟨e0, e1, e2, e3, e4, e5, e6, e7, e8⟩ := idx_facts9 t
  have hu : u.val = 0 := by have := u.isLt; omega
  have hr : r.val < 512 := r.isLt
  have hP : Cert.Spec.proj (V c main_v1) (V c main_v3) (V c main_arg5) (((cfg0.win 9).blk t).view.emb (ix3 u r d))
      = Cert.Spec.projAt (V c main_v1) (V c main_v3) (V c main_arg5) ⟨win0_9.index t (0 : Fin 3), by omega⟩
          ⟨win0_9.index t (1 : Fin 3) * 512 + r.val, by omega⟩ d := by
    refine proj_at _ _ _ _ _ _ _ ?_ ?_ ?_
    · show win0_9.index t (0 : Fin 3) * 1 + 1 * u.val = win0_9.index t (0 : Fin 3); omega
    · show win0_9.index t (1 : Fin 3) * 512 + 1 * r.val = win0_9.index t (1 : Fin 3) * 512 + r.val; omega
    · show win0_9.index t (2 : Fin 3) * 512 + 1 * d.val = d.val; omega
  rw [hP, R0Body.pay_k]
  unfold R0Body.lin Cert.Spec.projAt
  congr 1
  · refine Finset.sum_congr rfl fun k _ => ?_
    rw [read_a9 V c t r k ⟨win0_9.index t (0 : Fin 3), by omega⟩ ⟨win0_9.index t (1 : Fin 3) * 512 + r.val, by omega⟩ rfl rfl, read_w9 V c t k d]
  · exact read_b9 V c t d

/-- What point t writes back to the second result array is block t of the linear layer of the arrays the region reads. -/
private theorem flushed9_eq (c : Dev nD) (t : Fin cfg0.N) :
    (dat0 (F := Ideal) V c).flushed 9 t = ((cfg0.win 9).blk t).view.read (Elt Ideal) (Cert.Spec.proj (V c main_v1) (V c main_v3) (V c main_arg5)) := by
  show (cfg0.win 9).cut (grid0.coords t) ((dat0 V c).after 9 t) = _
  rw [after0_9]
  unfold out0_9
  rw [View.canon_unit_zero hz3]
  simp only [View.ld_unit_zero (S := S1x512x512) hz3, View.ld_unit_zero (S := S512x512) hz2, View.ld_unit_zero (S := S512) hz1]
  funext j
  exact cell9 V c t j

/-- An index of the array is in point t's block iff each coordinate is in the block's range on its axis. -/
private theorem mem_blk9 (t : Fin cfg0.N) (i : S4x2048x512.Idx) :
    i ∈ ((cfg0.win 9).blk t).view.set ↔ ∀ a : Fin 3, win0_9.index t a * S1x512x512.size a ≤ (i a).val ∧ (i a).val < win0_9.index t a * S1x512x512.size a + S1x512x512.size a := by
  show i ∈ ((View.whole main_v5_1).slice (win0_9.rect t)).set ↔ _
  rw [View.set_slice_whole, Rect.mem_set_unit]
  exact Iff.rfl

/-- Every (batch, row block) pair is some grid point's. -/
private theorem idx_onto9 : ∀ (q0 : Fin 4) (q1 : Fin 4), ∃ t : Fin cfg0.N, win0_9.index t = ![q0.val, q1.val, 0] :=
  (by decide +kernel : ∀ (q0 : Fin 4) (q1 : Fin 4), ∃ t : Fin grid0.N, win0_9.index t = ![q0.val, q1.val, 0])

/-- Entry (b, l, d) of the second result array lies in the block of the point with coordinates (b, l / 512). -/
private theorem cover9 (i : S4x2048x512.Idx) : ∃ t : Fin cfg0.N, (cfg0.win 9).flush t = true ∧ i ∈ ((cfg0.win 9).blk t).view.set := by
  have hi0 : (i 0).val < 4 := (i 0).isLt
  have hi1 : (i 1).val < 2048 := (i 1).isLt
  have hi2 : (i 2).val < 512 := (i 2).isLt
  obtain ⟨t, ht⟩ := idx_onto9 ⟨(i 0).val, by omega⟩ ⟨(i 1).val / 512, by omega⟩
  have q0 : win0_9.index t (0 : Fin 3) = (i 0).val := congrFun ht 0
  have q1 : win0_9.index t (1 : Fin 3) = (i 1).val / 512 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 512 ≤ (i 2).val ∧ (i 2).val < win0_9.index t (2 : Fin 3) * 512 + 512; omega

theorem arr_k (c : Dev nD) :
    (dat0 (F := Ideal) V c).arrAt 9 cfg0.N = Cert.Spec.proj (V c main_v1) (V c main_v3) (V c main_arg5) :=
  (dat0 V c).arrAt_eq_of_cover 9 _ (fun t _ => flushed9_eq V c t) cover9

/-- The printed index maps over the 16 grid points: the activation's block moves with the third result's block on the
    batch and row axes, every block sits at 0 on the feature axis, the weight and the bias are whole arrays, and the
    result's block indices stay below 4. -/
private theorem idx_facts10 : ∀ t : Fin cfg0.N,
    win0_1.index t (0 : Fin 3) = win0_10.index t (0 : Fin 3)
    ∧ win0_1.index t (1 : Fin 3) = win0_10.index t (1 : Fin 3)
    ∧ win0_1.index t (2 : Fin 3) = 0
    ∧ win0_10.index t (2 : Fin 3) = 0
    ∧ win0_6.index t (0 : Fin 2) = 0 ∧ win0_6.index t (1 : Fin 2) = 0
    ∧ win0_7.index t (0 : Fin 1) = 0
    ∧ win0_10.index t (0 : Fin 3) ≤ 3 ∧ win0_10.index t (1 : Fin 3) ≤ 3 :=
  (by decide +kernel : ∀ t : Fin grid0.N, _)

/-- Row r, column k of the activation block at point t is entry (p, l, k) of the activation array, (p, l) the
    row's place in the array. -/
private theorem read_a10 (c : Dev nD) (t : Fin cfg0.N) (r k : Fin 512) (p : Fin 4) (l : Fin 2048)
    (hp : p.val = win0_10.index t (0 : Fin 3)) (hl : l.val = win0_10.index t (1 : Fin 3) * 512 + r.val) :
    iblk0 V c 1 t (ix3 (0 : Fin 1) r k) = V c main_v1 (ix3 p l k) := by
  obtain ⟨e0, e1, e2, e3, e4, e5, e6, e7, e8⟩ := idx_facts10 t
  unfold iblk0
  rw [View.read_apply]
  show V c main_v1 (((cfg0.win 1).blk t).view.emb (ix3 (0 : Fin 1) r k)) = V c main_v1 (ix3 p l k)
  congr 1
  funext a; apply Fin.ext
  match a with
  | ⟨0, _⟩ => show win0_1.index t (0 : Fin 3) * 1 + 1 * (0 : Fin 1).val = p.val; rw [hp, e0]; show _ * 1 + 1 * 0 = _; omega
  | ⟨1, _⟩ => show win0_1.index t (1 : Fin 3) * 512 + 1 * r.val = l.val; rw [hl, e1]; omega
  | ⟨2, _⟩ => show win0_1.index t (2 : Fin 3) * 512 + 1 * k.val = k.val; rw [e2]; omega

/-- The weight block at any point is the weight array. -/
private theorem read_w10 (c : Dev nD) (t : Fin cfg0.N) (k d : Fin 512) :
    iblk0 V c 6 t (ix2 k d) = V c main_v4 (ix2 k d) := by
  obtain ⟨e0, e1, e2, e3, e4, e5, e6, e7, e8⟩ := idx_facts10 t
  unfold iblk0
  rw [View.read_apply]
  show V c main_v4 (((cfg0.win 6).blk t).view.emb (ix2 k d)) = V c main_v4 (ix2 k d)
  congr 1
  funext a; apply Fin.ext
  match a with
  | ⟨0, _⟩ => show win0_6.index t (0 : Fin 2) * 512 + 1 * k.val = k.val; rw [e4]; omega
  | ⟨1, _⟩ => show win0_6.index t (1 : Fin 2) * 512 + 1 * d.val = d.val; rw [e5]; omega

/-- The bias block at any point is the bias array. -/
private theorem read_b10 (c : Dev nD) (t : Fin cfg0.N) (d : Fin 512) :
    iblk0 V c 7 t (ix1 d) = V c main_arg7 (ix1 d) := by
  obtain ⟨e0, e1, e2, e3, e4, e5, e6, e7, e8⟩ := idx_facts10 t
  unfold iblk0
  rw [View.read_apply]
  show V c main_arg7 (((cfg0.win 7).blk t).view.emb (ix1 d)) = V c main_arg7 (ix1 d)
  congr 1
  funext a; apply Fin.ext
  match a with
  | ⟨0, _⟩ => show win0_7.index t (0 : Fin 1) * 512 + 1 * d.val = d.val; rw [e6]; omega

/-- One entry of what point t leaves in the third result's block: the linear layer at the entry's place in the array. -/
private theorem cell10 (c : Dev nD) (t : Fin cfg0.N) (j : S1x512x512.Idx) :
    k0_pay1 (F := Ideal) (k0_pay2 (iblk0 V c 1 t)) (k0_pay5 (iblk0 V c 6 t)) (iblk0 V c 7 t) j
      = Cert.Spec.proj (V c main_v1) (V c main_v4) (V c main_arg7) (((cfg0.win 10).blk t).view.emb j) := by
  obtain ⟨u, r, d, rfl⟩ : ∃ (u : Fin 1) (r : Fin 512) (d : Fin 512), j = ix3 u r d := ⟨j 0, j 1, j 2, eq_ix3 j⟩
  obtain ⟨e0, e1, e2, e3, e4, e5, e6, e7, e8⟩ := idx_facts10 t
  have hu : u.val = 0 := by have := u.isLt; omega
  have hr : r.val < 512 := r.isLt
  have hP : Cert.Spec.proj (V c main_v1) (V c main_v4) (V c main_arg7) (((cfg0.win 10).blk t).view.emb (ix3 u r d))
      = Cert.Spec.projAt (V c main_v1) (V c main_v4) (V c main_arg7) ⟨win0_10.index t (0 : Fin 3), by omega⟩
          ⟨win0_10.index t (1 : Fin 3) * 512 + r.val, by omega⟩ d := by
    refine proj_at _ _ _ _ _ _ _ ?_ ?_ ?_
    · show win0_10.index t (0 : Fin 3) * 1 + 1 * u.val = win0_10.index t (0 : Fin 3); omega
    · show win0_10.index t (1 : Fin 3) * 512 + 1 * r.val = win0_10.index t (1 : Fin 3) * 512 + r.val; omega
    · show win0_10.index t (2 : Fin 3) * 512 + 1 * d.val = d.val; omega
  rw [hP, R0Body.pay_v]
  unfold R0Body.lin Cert.Spec.projAt
  congr 1
  · refine Finset.sum_congr rfl fun k _ => ?_
    rw [read_a10 V c t r k ⟨win0_10.index t (0 : Fin 3), by omega⟩ ⟨win0_10.index t (1 : Fin 3) * 512 + r.val, by omega⟩ rfl rfl, read_w10 V c t k d]
  · exact read_b10 V c t d

/-- What point t writes back to the third result array is block t of the linear layer of the arrays the region reads. -/
private theorem flushed10_eq (c : Dev nD) (t : Fin cfg0.N) :
    (dat0 (F := Ideal) V c).flushed 10 t = ((cfg0.win 10).blk t).view.read (Elt Ideal) (Cert.Spec.proj (V c main_v1) (V c main_v4) (V c main_arg7)) := by
  show (cfg0.win 10).cut (grid0.coords t) ((dat0 V c).after 10 t) = _
  rw [after0_10]
  unfold out0_10
  rw [View.canon_unit_zero hz3]
  simp only [View.ld_unit_zero (S := S1x512x512) hz3, View.ld_unit_zero (S := S512x512) hz2, View.ld_unit_zero (S := S512) hz1]
  funext j
  exact cell10 V c t j

/-- An index of the array is in point t's block iff each coordinate is in the block's range on its axis. -/
private theorem mem_blk10 (t : Fin cfg0.N) (i : S4x2048x512.Idx) :
    i ∈ ((cfg0.win 10).blk t).view.set ↔ ∀ a : Fin 3, win0_10.index t a * S1x512x512.size a ≤ (i a).val ∧ (i a).val < win0_10.index t a * S1x512x512.size a + S1x512x512.size a := by
  show i ∈ ((View.whole main_v5_2).slice (win0_10.rect t)).set ↔ _
  rw [View.set_slice_whole, Rect.mem_set_unit]
  exact Iff.rfl

/-- Every (batch, row block) pair is some grid point's. -/
private theorem idx_onto10 : ∀ (q0 : Fin 4) (q1 : Fin 4), ∃ t : Fin cfg0.N, win0_10.index t = ![q0.val, q1.val, 0] :=
  (by decide +kernel : ∀ (q0 : Fin 4) (q1 : Fin 4), ∃ t : Fin grid0.N, win0_10.index t = ![q0.val, q1.val, 0])

/-- Entry (b, l, d) of the third result array lies in the block of the point with coordinates (b, l / 512). -/
private theorem cover10 (i : S4x2048x512.Idx) : ∃ t : Fin cfg0.N, (cfg0.win 10).flush t = true ∧ i ∈ ((cfg0.win 10).blk t).view.set := by
  have hi0 : (i 0).val < 4 := (i 0).isLt
  have hi1 : (i 1).val < 2048 := (i 1).isLt
  have hi2 : (i 2).val < 512 := (i 2).isLt
  obtain ⟨t, ht⟩ := idx_onto10 ⟨(i 0).val, by omega⟩ ⟨(i 1).val / 512, by omega⟩
  have q0 : win0_10.index t (0 : Fin 3) = (i 0).val := congrFun ht 0
  have q1 : win0_10.index t (1 : Fin 3) = (i 1).val / 512 := congrFun ht 1
  have q2 : win0_10.index t (2 : Fin 3) = 0 := congrFun ht 2
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 512 ≤ (i 1).val ∧ (i 1).val < win0_10.index t (1 : Fin 3) * 512 + 512; omega
  | ⟨2, _⟩ => show win0_10.index t (2 : Fin 3) * 512 ≤ (i 2).val ∧ (i 2).val < win0_10.index t (2 : Fin 3) * 512 + 512; omega

theorem arr_v (c : Dev nD) :
    (dat0 (F := Ideal) V c).arrAt 10 cfg0.N = Cert.Spec.proj (V c main_v1) (V c main_v4) (V c main_arg7) :=
  (dat0 V c).arrAt_eq_of_cover 10 _ (fun t _ => flushed10_eq V c t) cover10

end Cert.KernelIdeal.R0Value

end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.R1Body.lean ====
/-
  The attention kernel's stored value, read at one entry. For query row r and feature d of the block it is the softmax
  attention `Spec.softAtt` of the scores of row r against every key row (dot products over the 64 features, times
  0.125) with column d of the value block.
-/
import proofs.«121241_j24678882083069_1_alg».proof.Proof.Gen.KernelIdeal.Skeleton
import proofs.«121241_j24678882083069_1_alg».proof.Proof.Spec
import proofs.«121241_j24678882083069_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R1Body

open Cert.KernelIdeal Cert.KernelIdeal.Gen
open Idealize.ShloMosaic Idealize.ShloMosaic.ValueIdx

/-- The left operand's row coordinate is the output's row. -/
private theorem lhsA_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
/-- The left operand's column coordinate is the contraction index. -/
private theorem lhsA_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
/-- The right operand's row coordinate is the contraction index. -/
private theorem rhsA_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
/-- The right operand's column coordinate is the output's column. -/
private theorem rhsA_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The left operand's row coordinate is the output's row. -/
private theorem lhsB_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- The left operand's column coordinate is the contraction index. -/
private theorem lhsB_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
/-- The right operand's row coordinate is the contraction index. -/
private theorem rhsB_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- The right operand's column coordinate is the output's column. -/
private theorem rhsB_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- A [512,64] by [64,2048] product into zero, at (r, c): the sum over the 64 shared coordinates. -/
private theorem mmA_apply (a : FVec Ideal S512x64 .bf16) (b : FVec Ideal S64x2048 .bf16) (r : Fin 512) (c : Fin 2048) :
    matmul dot_S512x64_S64x2048_S512x2048_1_0_0_1_n_n none a b (constant S512x2048 .f32 0x00000000#32) (ix2 r c)
      = ∑ e : Fin 64, a (ix2 r e) * b (ix2 e c) := by
  refine (Ideal.matmul_constant_zero_apply dot_S512x64_S64x2048_S512x2048_1_0_0_1_n_n none a b (ix2 r c)).trans ?_
  rw [← Equiv.sum_comp (contrEquiv1 dot_S512x64_S64x2048_S512x2048_1_0_0_1_n_n 64 rfl rfl).symm]
  refine Finset.sum_congr rfl fun e _ => ?_
  have hk := contrEquiv1_symm_val dot_S512x64_S64x2048_S512x2048_1_0_0_1_n_n 64 rfl rfl e
  have el : dot_S512x64_S64x2048_S512x2048_1_0_0_1_n_n.lhsIdx (ix2 r c) ((contrEquiv1 dot_S512x64_S64x2048_S512x2048_1_0_0_1_n_n 64 rfl rfl).symm e) = ix2 r e := funext fun x => Fin.ext (by
    match x with
    | ⟨0, _⟩ => exact lhsA_0 _ _
    | ⟨1, _⟩ => exact (lhsA_1 _ _).trans hk)
  have er : dot_S512x64_S64x2048_S512x2048_1_0_0_1_n_n.rhsIdx (ix2 r c) ((contrEquiv1 dot_S512x64_S64x2048_S512x2048_1_0_0_1_n_n 64 rfl rfl).symm e) = ix2 e c := funext fun x => Fin.ext (by
    match x with
    | ⟨0, _⟩ => exact (rhsA_0 _ _).trans hk
    | ⟨1, _⟩ => exact rhsA_1 _ _)
  rw [el, er]

/-- A [512,2048] by [2048,64] product into zero, at (r, c): the sum over the 2048 shared coordinates. -/
private theorem mmB_apply (a : FVec Ideal S512x2048 .bf16) (b : FVec Ideal S2048x64 .bf16) (r : Fin 512) (c : Fin 64) :
    matmul dot_S512x2048_S2048x64_S512x64_1_0_0_1_n_n none a b (constant S512x64 .f32 0x00000000#32) (ix2 r c)
      = ∑ e : Fin 2048, a (ix2 r e) * b (ix2 e c) := by
  refine (Ideal.matmul_constant_zero_apply dot_S512x2048_S2048x64_S512x64_1_0_0_1_n_n none a b (ix2 r c)).trans ?_
  rw [← Equiv.sum_comp (contrEquiv1 dot_S512x2048_S2048x64_S512x64_1_0_0_1_n_n 2048 rfl rfl).symm]
  refine Finset.sum_congr rfl fun e _ => ?_
  have hk := contrEquiv1_symm_val dot_S512x2048_S2048x64_S512x64_1_0_0_1_n_n 2048 rfl rfl e
  have el : dot_S512x2048_S2048x64_S512x64_1_0_0_1_n_n.lhsIdx (ix2 r c) ((contrEquiv1 dot_S512x2048_S2048x64_S512x64_1_0_0_1_n_n 2048 rfl rfl).symm e) = ix2 r e := funext fun x => Fin.ext (by
    match x with
    | ⟨0, _⟩ => exact lhsB_0 _ _
    | ⟨1, _⟩ => exact (lhsB_1 _ _).trans hk)
  have er : dot_S512x2048_S2048x64_S512x64_1_0_0_1_n_n.rhsIdx (ix2 r c) ((contrEquiv1 dot_S512x2048_S2048x64_S512x64_1_0_0_1_n_n 2048 rfl rfl).symm e) = ix2 e c := funext fun x => Fin.ext (by
    match x with
    | ⟨0, _⟩ => exact (rhsB_0 _ _).trans hk
    | ⟨1, _⟩ => exact rhsB_1 _ _)
  rw [el, er]

/-- A splat scalar constant at the ideal values is the extended real its word encodes. -/
private theorem scalar_ofBits (b : BitVec 32) : Scalar.ofBits (F := Ideal) .f32 b = Ideal.ofBits .f32 b := rfl

/-- An exponential at an index is the exponential of the element. -/
private theorem expf_apply {s : Shape} (a : FVec Ideal s .f32) (i : s.Idx) : exp a i = Ideal.exp (a i) := rfl

/-- The row maximum of a [512,2048] array, folded from minus infinity, joined with minus infinity, kept as a column and
    spread back over the rows. -/
private def rowMaxB (s : FVec Ideal S512x2048 .f32) : FVec Ideal S512x2048 .f32 :=
  broadcastTo S512x2048
    (shapeCast S512x1
      (maximumf (broadcast S512 (Scalar.ofBits .f32 0xFF800000#32))
        (multiReduction (F := Ideal) .maximumf [1] S512 s 0xFF800000#32 reduces_S512x2048_S512 (.inl rfl) rfl))
      shapeCasts_S512_S512x1)
    broadcasts_S512x1_S512x2048

/-- The exponentials of the entries shifted by their row's maximum. -/
private def expS (s : FVec Ideal S512x2048 .f32) : FVec Ideal S512x2048 .f32 := exp (subf s (rowMaxB s))

/-- The row sums of a [512,2048] array, kept as a column and spread back over the rows. -/
private def rowSumB (x : FVec Ideal S512x2048 .f32) : FVec Ideal S512x2048 .f32 :=
  broadcastTo S512x2048
    (shapeCast S512x1
      (multiReduction (F := Ideal) .add [1] S512 x 0x00000000#32 reduces_S512x2048_S512 (.inl rfl) rfl)
      shapeCasts_S512_S512x1)
    broadcasts_S512x1_S512x2048

/-- The softmax weights of every row. -/
private def weights (s : FVec Ideal S512x2048 .f32) : FVec Ideal S512x2048 .bf16 :=
  truncf .bf16 (divf (expS s) (rowSumB (expS s))) bitsLt_bf16_f32

/-- The lane maximum over the second axis at row r is the fold of max over the row, from minus infinity. -/
private theorem rowmax_apply (s : FVec Ideal S512x2048 .f32) (r : Fin 512) :
    multiReduction (F := Ideal) .maximumf [1] S512 s 0xFF800000#32 reduces_S512x2048_S512 (.inl rfl) rfl (ix1 r)
      = (Finset.univ : Finset (Fin 2048)).fold max (Ideal.ofBits .f32 0xFF800000#32) (fun k => s (ix2 r k)) := by
  refine (Ideal.multiReduction_maximumf_single s _ reduces_S512x2048_S512 (.inl rfl) rfl (ix1 r)).trans ?_
  have hf : (s ∘ reduces_S512x2048_S512.lift (ix1 r)) = fun k : Fin 2048 => s (ix2 r k) :=
    funext fun k => congrArg s (funext fun ax => Fin.ext (by
      match ax with
      | ⟨0, _⟩ => rfl
      | ⟨1, _⟩ => rfl))
  exact congrArg (fun f => (Finset.univ : Finset (Fin 2048)).fold max (Ideal.ofBits .f32 0xFF800000#32) f) hf

/-- The spread row maximum at (r, j) is the specification's row maximum of row r. -/
private theorem rowMaxB_apply (s : FVec Ideal S512x2048 .f32) (r : Fin 512) (j : Fin 2048) :
    rowMaxB s (ix2 r j) = Cert.Spec.rowMax (fun k => s (ix2 r k)) := by
  unfold rowMaxB Cert.Spec.rowMax Cert.Spec.negInf
  rw [broadcastTo_a1_ab_apply, shapeCast_a_a1_apply, maximumf_apply, broadcast_apply, scalar_ofBits]
  exact congrArg (max (Ideal.ofBits .f32 0xFF800000#32)) (rowmax_apply s r)

/-- The shifted exponential at (r, j). -/
private theorem expS_apply (s : FVec Ideal S512x2048 .f32) (r : Fin 512) (j : Fin 2048) :
    expS s (ix2 r j) = Cert.Spec.expShift (fun k => s (ix2 r k)) j := by
  unfold expS Cert.Spec.expShift
  rw [expf_apply, subf_apply, rowMaxB_apply]

/-- The spread row sum at (r, j) is the sum of row r. -/
private theorem rowSumB_apply (x : FVec Ideal S512x2048 .f32) (r : Fin 512) (j : Fin 2048) :
    rowSumB x (ix2 r j) = ∑ k : Fin 2048, x (ix2 r k) := by
  unfold rowSumB
  rw [broadcastTo_a1_ab_apply, shapeCast_a_a1_apply]
  exact multiReduction_add_rows x _ reduces_S512x2048_S512 _ _ r

/-- The weight at (r, j) is the specification's softmax weight of row r at j. -/
private theorem weights_apply (s : FVec Ideal S512x2048 .f32) (r : Fin 512) (j : Fin 2048) :
    weights s (ix2 r j) = Cert.Spec.softmaxAt (fun k => s (ix2 r k)) j := by
  unfold weights Cert.Spec.softmaxAt
  rw [truncf_apply, divf_apply, rowSumB_apply, expS_apply]
  exact congrArg (Ideal.div _) (Finset.sum_congr rfl fun k _ => expS_apply s r k)

/-- The scores: the query block against the transposed key block, times the factor 0.125. -/
private def scoresV (q : Vec Ideal S1x512x64 .bf16) (k : Vec Ideal S1x2048x64 .bf16) : FVec Ideal S512x2048 .f32 :=
  mulf
    (matmul dot_S512x64_S64x2048_S512x2048_1_0_0_1_n_n none
      (shapeCast S512x64 q shapeCasts_S1x512x64_S512x64 : FVec Ideal S512x64 .bf16)
      (transpose S64x2048 [1, 0] (shapeCast S2048x64 k shapeCasts_S1x2048x64_S2048x64 : FVec Ideal S2048x64 .bf16)
        transposes_S2048x64_p1_0_S64x2048 : FVec Ideal S64x2048 .bf16)
      (constant S512x2048 .f32 0x00000000#32))
    (broadcast S512x2048 (Scalar.ofBits .f32 0x3E000000#32))

/-- The score at (r, j): the dot product of query row r with key row j over the 64 features, times the factor. -/
private theorem scoresV_apply (q : Vec Ideal S1x512x64 .bf16) (k : Vec Ideal S1x2048x64 .bf16) (r : Fin 512) (j : Fin 2048) :
    scoresV q k (ix2 r j)
      = (∑ e : Fin 64, q (ix3 (0 : Fin 1) r e) * k (ix3 (0 : Fin 1) j e)) * Cert.Spec.scale := by
  unfold scoresV Cert.Spec.scale
  rw [mulf_apply, broadcast_apply, scalar_ofBits, mmA_apply]
  refine congrArg (· * Ideal.ofBits .f32 0x3E000000#32) (Finset.sum_congr rfl fun e _ => ?_)
  rw [shapeCast_1ab_ab_apply, transpose_ix2_apply, shapeCast_1ab_ab_apply]

theorem pay_o (q : Vec Ideal S1x512x64 .bf16) (k v : Vec Ideal S1x2048x64 .bf16) (u : Fin 1) (r : Fin 512) (d : Fin 64) :
    k1_pay1 (F := Ideal) q k v (ix3 u r d)
      = Cert.Spec.softAtt (fun j => (∑ e : Fin 64, q (ix3 (0 : Fin 1) r e) * k (ix3 (0 : Fin 1) j e)) * Cert.Spec.scale)
          (fun j => v (ix3 (0 : Fin 1) j d)) := by
  show shapeCast S1x512x64
      (matmul dot_S512x2048_S2048x64_S512x64_1_0_0_1_n_n none (weights (scoresV q k))
        (shapeCast S2048x64 v shapeCasts_S1x2048x64_S2048x64 : FVec Ideal S2048x64 .bf16) (constant S512x64 .f32 0x00000000#32))
      shapeCasts_S512x64_S1x512x64 (ix3 u r d) = _
  rw [shapeCast_ab_1ab_apply, mmB_apply]
  unfold Cert.Spec.softAtt
  refine Finset.sum_congr rfl fun j _ => ?_
  rw [weights_apply, shapeCast_1ab_ab_apply]
  have hs : (fun j' : Fin 2048 => scoresV q k (ix2 r j'))
      = fun j' => (∑ e : Fin 64, q (ix3 (0 : Fin 1) r e) * k (ix3 (0 : Fin 1) j' e)) * Cert.Spec.scale :=
    funext fun j' => scoresV_apply q k r j'
  rw [hs]

end Cert.KernelIdeal.R1Body

end
-- ==== Proof.R1Value.lean ====
/-
  What the attention region leaves in its result array, for any contents `V` the region is entered with: the
  attention `Spec.att3` of the query, key and value arrays the region reads. Grid point (g, t) reads rows
  512 t … 512 t + 511 of slab g of the queries and all of slab g of the keys and values, and writes the same rows of
  slab g of the result; the 128 points tile the [32, 2048, 64] array.
-/
import proofs.«121241_j24678882083069_1_alg».proof.Proof.Gen.KernelIdeal.Frame
import proofs.«121241_j24678882083069_1_alg».proof.Proof.R1Body
import proofs.«121241_j24678882083069_1_alg».proof.Proof.Spec
import Idealize.ShloMosaic.Lib.Pipeline.Value

set_option maxRecDepth 16384

noncomputable section

namespace Cert.KernelIdeal.R1Value

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-block access, as a constant function. -/
private theorem hz : (![0, 0, 0] : Fin 3 → Nat) = fun _ => 0 := funext fun a => by fin_cases a <;> rfl

/-- The four block-index maps over the 128 grid points: the query block moves with the result block on the slab and
    row-block axes and sits at feature block 0; the key and value blocks share the result's slab and are otherwise
    block (0, 0); the result's block index is (g, t, 0) with g at most 31 and t at most 3. -/
private theorem idx_facts : ∀ t : Fin cfg1.N,
    win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (0 : Fin 3) ≤ 31
    ∧ win1_3.index t (1 : Fin 3) ≤ 3
    ∧ win1_3.index t (2 : Fin 3) = 0 :=
  (by decide +kernel : ∀ t : Fin grid1.N, _)

/-- Every result block (g, t, 0), g below 32 and t below 4, is some grid point's. -/
private theorem idx_onto : ∀ (q0 : Fin 32) (q1 : Fin 4), ∃ t : Fin cfg1.N, win1_3.index t = ![q0.val, q1.val, 0] :=
  (by decide +kernel : ∀ (q0 : Fin 32) (q1 : Fin 4), ∃ t : Fin grid1.N, win1_3.index t = ![q0.val, q1.val, 0])

/-- An entry of the query block at point `t` is the entry of the query array whose coordinate on each axis is the
    block index times the block's extent plus the entry's own coordinate. -/
private theorem blk0_apply (c : Dev nD) (t : Fin cfg1.N) (y : S1x512x64.Idx) (k : S32x2048x64.Idx)
    (h0 : (k 0).val = win1_0.index t (0 : Fin 3) * 1 + 1 * (y 0).val)
    (h1 : (k 1).val = win1_0.index t (1 : Fin 3) * 512 + 1 * (y 1).val)
    (h2 : (k 2).val = win1_0.index t (2 : Fin 3) * 64 + 1 * (y 2).val) :
    (iblk1 V c 0 t : Vec Ideal S1x512x64 .bf16) y = (V c main_v12 : S32x2048x64.Idx → Elt Ideal .bf16) k := by
  unfold iblk1
  rw [View.read_apply]
  show V c main_v12 (((cfg1.win 0).blk t).view.emb y) = V c main_v12 k
  refine congrArg _ ?_
  funext a
  apply Fin.ext
  match a with
  | ⟨0, _⟩ => exact h0.symm
  | ⟨1, _⟩ => exact h1.symm
  | ⟨2, _⟩ => exact h2.symm

/-- The same for the key block at point `t`. -/
private theorem blk1_apply (c : Dev nD) (t : Fin cfg1.N) (y : S1x2048x64.Idx) (k : S32x2048x64.Idx)
    (h0 : (k 0).val = win1_1.index t (0 : Fin 3) * 1 + 1 * (y 0).val)
    (h1 : (k 1).val = win1_1.index t (1 : Fin 3) * 2048 + 1 * (y 1).val)
    (h2 : (k 2).val = win1_1.index t (2 : Fin 3) * 64 + 1 * (y 2).val) :
    (iblk1 V c 1 t : Vec Ideal S1x2048x64 .bf16) y = (V c main_v13 : S32x2048x64.Idx → Elt Ideal .bf16) k := by
  unfold iblk1
  rw [View.read_apply]
  show V c main_v13 (((cfg1.win 1).blk t).view.emb y) = V c main_v13 k
  refine congrArg _ ?_
  funext a
  apply Fin.ext
  match a with
  | ⟨0, _⟩ => exact h0.symm
  | ⟨1, _⟩ => exact h1.symm
  | ⟨2, _⟩ => exact h2.symm

/-- The same for the value block at point `t`. -/
private theorem blk2_apply (c : Dev nD) (t : Fin cfg1.N) (y : S1x2048x64.Idx) (k : S32x2048x64.Idx)
    (h0 : (k 0).val = win1_2.index t (0 : Fin 3) * 1 + 1 * (y 0).val)
    (h1 : (k 1).val = win1_2.index t (1 : Fin 3) * 2048 + 1 * (y 1).val)
    (h2 : (k 2).val = win1_2.index t (2 : Fin 3) * 64 + 1 * (y 2).val) :
    (iblk1 V c 2 t : Vec Ideal S1x2048x64 .bf16) y = (V c main_v14 : S32x2048x64.Idx → Elt Ideal .bf16) k := by
  unfold iblk1
  rw [View.read_apply]
  show V c main_v14 (((cfg1.win 2).blk t).view.emb y) = V c main_v14 k
  refine congrArg _ ?_
  funext a
  apply Fin.ext
  match a with
  | ⟨0, _⟩ => exact h0.symm
  | ⟨1, _⟩ => exact h1.symm
  | ⟨2, _⟩ => exact h2.symm

/-- Entry (u, r, d) of what the body computes from the three blocks at point `t` is the attention of the whole arrays
    at the array index that entry has in the result block of `t`: slab g, row 512 t + r, feature d. The query row read is
    row r of the query block, which is row 512 t + r of slab g; the key rows and the value column are those of slab g. -/
private theorem flushed_apply (c : Dev nD) (t : Fin cfg1.N) (u : Fin 1) (r : Fin 512) (d : Fin 64) :
    k1_pay1 (F := Ideal) (iblk1 V c 0 t) (iblk1 V c 1 t) (iblk1 V c 2 t) (ix3 u r d)
      = Cert.Spec.att3 (V c main_v12) (V c main_v13) (V c main_v14) (((cfg1.win 3).blk t).view.emb (ix3 u r d)) := by
  rw [Cert.KernelIdeal.R1Body.pay_o]
  unfold Cert.Spec.att3
  obtain ⟨e0, e1, e2, e3, e4, e5, e6, e7, e8, b0, b1, e9⟩ := idx_facts t
  have hi0 : ((((cfg1.win 3).blk t).view.emb (ix3 u r d)) 0).val = win1_3.index t (0 : Fin 3) * 1 + 1 * u.val := rfl
  have hi1 : ((((cfg1.win 3).blk t).view.emb (ix3 u r d)) 1).val = win1_3.index t (1 : Fin 3) * 512 + 1 * r.val := rfl
  have hi2 : ((((cfg1.win 3).blk t).view.emb (ix3 u r d)) 2).val = win1_3.index t (2 : Fin 3) * 64 + 1 * d.val := rfl
  have hu : u.val = 0 := by omega
  refine congrArg₂ Cert.Spec.softAtt (funext fun j => ?_) (funext fun j => ?_)
  · refine congrArg (· * Cert.Spec.scale) (Finset.sum_congr rfl fun e _ => ?_)
    refine congrArg₂ (· * ·) ?_ ?_
    · refine blk0_apply V c t _ _ ?_ ?_ ?_
      · show ((((cfg1.win 3).blk t).view.emb (ix3 u r d)) 0).val = win1_0.index t (0 : Fin 3) * 1 + 1 * 0
        omega
      · show ((((cfg1.win 3).blk t).view.emb (ix3 u r d)) 1).val = win1_0.index t (1 : Fin 3) * 512 + 1 * r.val
        omega
      · show e.val = win1_0.index t (2 : Fin 3) * 64 + 1 * e.val
        omega
    · refine blk1_apply V c t _ _ ?_ ?_ ?_
      · show ((((cfg1.win 3).blk t).view.emb (ix3 u r d)) 0).val = win1_1.index t (0 : Fin 3) * 1 + 1 * 0
        omega
      · show j.val = win1_1.index t (1 : Fin 3) * 2048 + 1 * j.val
        omega
      · show e.val = win1_1.index t (2 : Fin 3) * 64 + 1 * e.val
        omega
  · refine blk2_apply V c t _ _ ?_ ?_ ?_
    · show ((((cfg1.win 3).blk t).view.emb (ix3 u r d)) 0).val = win1_2.index t (0 : Fin 3) * 1 + 1 * 0
      omega
    · show j.val = win1_2.index t (1 : Fin 3) * 2048 + 1 * j.val
      omega
    · show ((((cfg1.win 3).blk t).view.emb (ix3 u r d)) 2).val = win1_2.index t (2 : Fin 3) * 64 + 1 * d.val
      omega

/-- What point `t` writes back is block `t` of the attention of the whole arrays: the body stores one whole block,
    computed from the whole input blocks, and each of its entries is the attention at that entry's array index. -/
private theorem flushed_eq (c : Dev nD) (t : Fin cfg1.N) :
    (dat1 (F := Ideal) V c).flushed 3 t = ((cfg1.win 3).blk t).view.read (Elt Ideal) (Cert.Spec.att3 (V c main_v12) (V c main_v13) (V c main_v14)) := by
  show (cfg1.win 3).cut (grid1.coords t) ((dat1 V c).after 3 t) = _
  rw [after1_3]
  unfold out1_3
  rw [View.canon_unit_zero hz]
  simp only [View.ld_unit_zero (S := S1x512x64) hz, View.ld_unit_zero (S := S1x2048x64) hz]
  funext j
  show k1_pay1 (F := Ideal) (iblk1 V c 0 t) (iblk1 V c 1 t) (iblk1 V c 2 t) j = Cert.Spec.att3 (V c main_v12) (V c main_v13) (V c main_v14) (((cfg1.win 3).blk t).view.emb j)
  obtain ⟨u, r, d, rfl⟩ : ∃ (u : Fin 1) (r : Fin 512) (d : Fin 64), j = ix3 u r d := ⟨j 0, j 1, j 2, eq_ix3 j⟩
  exact flushed_apply V c t u r d

/-- An index of the result array is in point `t`'s block iff each coordinate lies in the block's range on its axis. -/
private theorem mem_blk (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v15).slice (win1_3.rect t)).set ↔ _
  rw [View.set_slice_whole, Rect.mem_set_unit]
  exact Iff.rfl

/-- The blocks tile the result array: index (g, l, d) lies in the block of the point whose block index is
    (g, l / 512, 0), and every point writes its block back. -/
private theorem cover (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

theorem arr_o (c : Dev nD) :
    (dat1 (F := Ideal) V c).arrAt 3 cfg1.N = Cert.Spec.att3 (V c main_v12) (V c main_v13) (V c main_v14) :=
  (dat1 V c).arrAt_eq_of_cover 3 _ (fun t _ => flushed_eq V c t) cover

end Cert.KernelIdeal.R1Value

end
-- ==== Proof.RefProj.lean ====
/-
  The reference's three linear layers are `Spec.proj` of its transposed activations, the transposed weight and the
  bias: its `dot_general` contracts the feature axis of the activations with the SECOND axis of the weight, which is
  the first axis of the transposed weight the kernel is given.
-/
import proofs.«121241_j24678882083069_1_alg».proof.Proof.Gen.ReferenceIdeal.Read
import proofs.«121241_j24678882083069_1_alg».proof.Proof.Spec
import Idealize.ShloMosaic.Lib.ValueLayout

noncomputable section

namespace Cert.ReferenceIdeal.RefProj

open Cert.ReferenceIdeal Cert.ReferenceIdeal.Gen Cert.ReferenceIdeal.Read
open Idealize.ShloMosaic Idealize.ShloMosaic.ValueIdx

/-- The left operand of the contraction at output entry (p, l, d) and summand k is entry (p, l, k). -/
private theorem lidx_ix3 (p : Fin 4) (l : Fin 2048) (d k : Fin 512) :
    lidx_main_v2 (ix3 p l d) k = ix3 p l k :=
  funext fun a => Fin.ext (by match a with | ⟨0, _⟩ => rfl | ⟨1, _⟩ => rfl | ⟨2, _⟩ => rfl)

/-- The right operand of the contraction at output entry (p, l, d) and summand k is entry (d, k): the weight is read
    along its second axis. -/
private theorem ridx_ix3 (p : Fin 4) (l : Fin 2048) (d k : Fin 512) :
    ridx_main_v2 (ix3 p l d) k = ix2 d k :=
  funext fun a => Fin.ext (by match a with | ⟨0, _⟩ => rfl | ⟨1, _⟩ => rfl)

/-- The bias, broadcast first to [1, 1, 512] and then to [4, 2048, 512], is read at the feature coordinate alone. -/
private theorem bidx_ix3 (p : Fin 4) (l : Fin 2048) (d : Fin 512) :
    idx_main_v3 (idx_main_v4 (ix3 p l d)) = ix1 d :=
  funext fun a => Fin.ext (by match a with | ⟨0, _⟩ => rfl)

/-- An array whose entry (p, l, d) is the sum over k of `a (p, l, k) * w (d, k)` plus `b d` is the linear layer of
    `a`, the transpose of `w` and `b`: the transpose at (k, d) is `w` at (d, k), term by term. -/
private theorem proj_of_read (y a : (⟨S4x2048x512, .f32⟩ : BufTy).Contents (Elt Ideal))
    (w : (⟨S512x512, .f32⟩ : BufTy).Contents (Elt Ideal)) (b : (⟨S512, .f32⟩ : BufTy).Contents (Elt Ideal))
    (ht : S512x512.Transposes [1, 0] S512x512)
    (h : ∀ i : S4x2048x512.Idx,
      y i = (∑ k : Fin 512, a (lidx_main_v2 i k) * w (ridx_main_v2 i k)) + b (idx_main_v3 (idx_main_v4 i))) :
    y = Cert.Spec.proj a (transpose S512x512 [1, 0] w ht) b := by
  funext i
  obtain ⟨p, l, d, rfl⟩ : ∃ (p : Fin 4) (l : Fin 2048) (d : Fin 512), i = ix3 p l d := ⟨i 0, i 1, i 2, eq_ix3 i⟩
  rw [h, bidx_ix3]
  show _ = (∑ k : Fin 512, a (ix3 p l k) * transpose S512x512 [1, 0] w ht (ix2 k d)) + b (ix1 d)
  refine congrArg (· + b (ix1 d)) (Finset.sum_congr rfl fun k _ => ?_)
  rw [lidx_ix3, ridx_ix3, transpose_ix2_apply]

theorem ref_q (x0 : (⟨S4x512x2048, .f32⟩ : BufTy).Contents (Elt Ideal)) (x2 : (⟨S512x512, .f32⟩ : BufTy).Contents (Elt Ideal))
    (x3 : (⟨S512, .f32⟩ : BufTy).Contents (Elt Ideal)) (ht : S512x512.Transposes [1, 0] S512x512) :
    val_main_v5 (F := Ideal) x0 x2 x3
      = Cert.Spec.proj (val_main_v0 (F := Ideal) x0) (transpose S512x512 [1, 0] x2 ht) x3 := by
  refine proj_of_read _ _ x2 x3 ht fun i => ?_
  rw [val_main_v5_apply, val_main_v2_apply, val_main_v4_apply, val_main_v3_apply]
  rfl

theorem ref_k (x1 : (⟨S4x512x2048, .f32⟩ : BufTy).Contents (Elt Ideal)) (x4 : (⟨S512x512, .f32⟩ : BufTy).Contents (Elt Ideal))
    (x5 : (⟨S512, .f32⟩ : BufTy).Contents (Elt Ideal)) (ht : S512x512.Transposes [1, 0] S512x512) :
    val_main_v11 (F := Ideal) x1 x4 x5
      = Cert.Spec.proj (val_main_v1 (F := Ideal) x1) (transpose S512x512 [1, 0] x4 ht) x5 := by
  refine proj_of_read _ _ x4 x5 ht fun i => ?_
  rw [val_main_v11_apply, val_main_v8_apply, val_main_v10_apply, val_main_v9_apply]
  rfl

theorem ref_v (x1 : (⟨S4x512x2048, .f32⟩ : BufTy).Contents (Elt Ideal)) (x6 : (⟨S512x512, .f32⟩ : BufTy).Contents (Elt Ideal))
    (x7 : (⟨S512, .f32⟩ : BufTy).Contents (Elt Ideal)) (ht : S512x512.Transposes [1, 0] S512x512) :
    val_main_v17 (F := Ideal) x1 x6 x7
      = Cert.Spec.proj (val_main_v1 (F := Ideal) x1) (transpose S512x512 [1, 0] x6 ht) x7 := by
  refine proj_of_read _ _ x6 x7 ht fun i => ?_
  rw [val_main_v17_apply, val_main_v14_apply, val_main_v16_apply, val_main_v15_apply]
  rfl

end Cert.ReferenceIdeal.RefProj

end
-- ==== Proof.RefAtt.lean ====
/-
  The reference's attention stage is `Spec.att4` of its three head-split projections: scores are dot products over
  the 64 features divided by sqrt 64 (which is the factor 0.125: `Spec.div_sqrt64`), the row maximum folded from minus
  infinity and joined with minus infinity, exponentials of the shifted scores, their sum from zero, the quotient, and the
  weighted sum over the keys of the value column.
-/
import proofs.«121241_j24678882083069_1_alg».proof.Proof.Gen.ReferenceIdeal.Read
import proofs.«121241_j24678882083069_1_alg».proof.Proof.Spec
import Idealize.ShloMosaic.Lib.ValueLayout

noncomputable section

namespace Cert.ReferenceIdeal.RefAtt

open Cert.ReferenceIdeal Cert.ReferenceIdeal.Gen Cert.ReferenceIdeal.Read
open Idealize.ShloMosaic Idealize.ShloMosaic.ValueIdx

/-- The scores' shape loses its last axis to the shape of the row statistics. -/
private theorem reduces_d3 : S4x8x2048x2048.Reduces [3] S4x8x2048 := by decide

/-- A row index (b, h, l) with key coordinate k put back on the last axis is (b, h, l, k). -/
private theorem lift_ix3 (b : Fin 4) (h : Fin 8) (l : Fin 2048) (k : Fin (S4x8x2048x2048.size 3)) :
    reduces_d3.lift (ix3 b h l) k = ix4 b h l (⟨k.val, k.isLt⟩ : Fin 2048) :=
  funext fun a => Fin.ext (by match a with | ⟨0, _⟩ => rfl | ⟨1, _⟩ => rfl | ⟨2, _⟩ => rfl | ⟨3, _⟩ => rfl)

section Stages

variable (x0 x1 : (⟨S4x512x2048, .f32⟩ : BufTy).Contents (Elt Ideal)) (x2 : (⟨S512x512, .f32⟩ : BufTy).Contents (Elt Ideal))
  (x3 : (⟨S512, .f32⟩ : BufTy).Contents (Elt Ideal)) (x4 : (⟨S512x512, .f32⟩ : BufTy).Contents (Elt Ideal))
  (x5 : (⟨S512, .f32⟩ : BufTy).Contents (Elt Ideal))

/-- The score of query (b, h, l) against key j: the dot product over the 64 features, times the factor 1/8. -/
private theorem score_apply (b : Fin 4) (h : Fin 8) (l j : Fin 2048) :
    val_main_v23 (F := Ideal) x0 x1 x2 x3 x4 x5 (ix4 b h l j)
      = (∑ e : Fin 64, val_main_v7 (F := Ideal) x0 x2 x3 (ix4 b h l e) * val_main_v13 (F := Ideal) x1 x4 x5 (ix4 b h j e))
          * Cert.Spec.scale := by
  rw [val_main_v23_apply, val_main_v20_apply, val_main_v22_apply, val_main_v21_apply, val_main_cst_apply]
  refine (Cert.Spec.div_sqrt64 _).trans ?_
  refine congrArg (· * Cert.Spec.scale) (Finset.sum_congr rfl fun e _ => ?_)
  have el : lidx_main_v20 (ix4 b h l j) e = ix4 b h l e :=
    funext fun a => Fin.ext (by match a with | ⟨0, _⟩ => rfl | ⟨1, _⟩ => rfl | ⟨2, _⟩ => rfl | ⟨3, _⟩ => rfl)
  have er : ridx_main_v20 (ix4 b h l j) e = ix4 b h j e :=
    funext fun a => Fin.ext (by match a with | ⟨0, _⟩ => rfl | ⟨1, _⟩ => rfl | ⟨2, _⟩ => rfl | ⟨3, _⟩ => rfl)
  rw [el, er]

/-- The row statistic of query (b, h, l): the maximum of its score row, as `Spec.rowMax` takes it. -/
private theorem rowmax_apply (b : Fin 4) (h : Fin 8) (l : Fin 2048) :
    val_main_v26 (F := Ideal) x0 x1 x2 x3 x4 x5 (ix3 b h l)
      = Cert.Spec.rowMax (fun j => val_main_v23 (F := Ideal) x0 x1 x2 x3 x4 x5 (ix4 b h l j)) := by
  rw [val_main_v26_apply, val_main_v25_apply, val_main_cst_1_apply]
  unfold val_main_v24
  generalize val_main_v23 (F := Ideal) x0 x1 x2 x3 x4 x5 = s
  have e := Host.reduce_eq_fold_single (FloatOps.maximumf (F := Ideal) (φ := .f32)) s (val_main_cst_0 (F := Ideal))
    reducesTo_S4x8x2048x2048_S4x8x2048_d3 reduces_d3 h_S_ (ix3 b h l)
  rw [e]
  have hf : (s ∘ reduces_d3.lift (ix3 b h l)) = fun j : Fin 2048 => s (ix4 b h l j) :=
    funext fun k => congrArg s (lift_ix3 b h l k)
  rw [hf]
  rfl

/-- The exponential of the score shifted by its row's statistic. -/
private theorem exp_apply (b : Fin 4) (h : Fin 8) (l j : Fin 2048) :
    val_main_v30 (F := Ideal) x0 x1 x2 x3 x4 x5 (ix4 b h l j)
      = Ideal.exp (val_main_v23 (F := Ideal) x0 x1 x2 x3 x4 x5 (ix4 b h l j)
          - val_main_v26 (F := Ideal) x0 x1 x2 x3 x4 x5 (ix3 b h l)) := by
  rw [val_main_v30_apply, val_main_v29_apply, val_main_v28_apply, val_main_v27_apply]
  have ei : idx_main_v27 (idx_main_v28 (ix4 b h l j)) = ix3 b h l :=
    funext fun a => Fin.ext (by match a with | ⟨0, _⟩ => rfl | ⟨1, _⟩ => rfl | ⟨2, _⟩ => rfl)
  rw [ei]
  rfl

/-- The row sum of the exponentials, from zero. -/
private theorem sum_apply (b : Fin 4) (h : Fin 8) (l : Fin 2048) :
    val_main_v31 (F := Ideal) x0 x1 x2 x3 x4 x5 (ix3 b h l)
      = ∑ j : Fin 2048, val_main_v30 (F := Ideal) x0 x1 x2 x3 x4 x5 (ix4 b h l j) := by
  rw [val_main_v31_apply, val_main_cst_2_apply]
  refine (congrArg (· + _) Ideal.ofBits_zero_f32).trans ?_
  rw [zero_add]
  refine Finset.sum_congr rfl fun k _ => congrArg _ ?_
  exact funext fun a => Fin.ext (by match a with | ⟨0, _⟩ => rfl | ⟨1, _⟩ => rfl | ⟨2, _⟩ => rfl | ⟨3, _⟩ => rfl)

/-- One weight: the exponential over its row's sum. -/
private theorem weight_apply (b : Fin 4) (h : Fin 8) (l j : Fin 2048) :
    val_main_v34 (F := Ideal) x0 x1 x2 x3 x4 x5 (ix4 b h l j)
      = Ideal.div (val_main_v30 (F := Ideal) x0 x1 x2 x3 x4 x5 (ix4 b h l j))
          (val_main_v31 (F := Ideal) x0 x1 x2 x3 x4 x5 (ix3 b h l)) := by
  rw [val_main_v34_apply, val_main_v33_apply, val_main_v32_apply]
  have ei : idx_main_v32 (idx_main_v33 (ix4 b h l j)) = ix3 b h l :=
    funext fun a => Fin.ext (by match a with | ⟨0, _⟩ => rfl | ⟨1, _⟩ => rfl | ⟨2, _⟩ => rfl)
  rw [ei]
  rfl

/-- One weight is the softmax weight of the score row. -/
private theorem softmax_apply (b : Fin 4) (h : Fin 8) (l j : Fin 2048) :
    val_main_v34 (F := Ideal) x0 x1 x2 x3 x4 x5 (ix4 b h l j)
      = Cert.Spec.softmaxAt (fun j' => (∑ e : Fin 64, val_main_v7 (F := Ideal) x0 x2 x3 (ix4 b h l e)
          * val_main_v13 (F := Ideal) x1 x4 x5 (ix4 b h j' e)) * Cert.Spec.scale) j := by
  have hs : (fun j' => val_main_v23 (F := Ideal) x0 x1 x2 x3 x4 x5 (ix4 b h l j'))
      = fun j' => (∑ e : Fin 64, val_main_v7 (F := Ideal) x0 x2 x3 (ix4 b h l e)
          * val_main_v13 (F := Ideal) x1 x4 x5 (ix4 b h j' e)) * Cert.Spec.scale :=
    funext fun j' => score_apply x0 x1 x2 x3 x4 x5 b h l j'
  have he : ∀ j', val_main_v30 (F := Ideal) x0 x1 x2 x3 x4 x5 (ix4 b h l j')
      = Cert.Spec.expShift (fun j' => val_main_v23 (F := Ideal) x0 x1 x2 x3 x4 x5 (ix4 b h l j')) j' := fun j' => by
    rw [exp_apply, rowmax_apply]
    rfl
  rw [weight_apply, sum_apply, he j, Finset.sum_congr rfl fun j' _ => he j', hs]
  rfl

end Stages

theorem ref_att (x0 x1 : (⟨S4x512x2048, .f32⟩ : BufTy).Contents (Elt Ideal)) (x2 : (⟨S512x512, .f32⟩ : BufTy).Contents (Elt Ideal))
    (x3 : (⟨S512, .f32⟩ : BufTy).Contents (Elt Ideal)) (x4 : (⟨S512x512, .f32⟩ : BufTy).Contents (Elt Ideal))
    (x5 : (⟨S512, .f32⟩ : BufTy).Contents (Elt Ideal)) (x6 : (⟨S512x512, .f32⟩ : BufTy).Contents (Elt Ideal))
    (x7 : (⟨S512, .f32⟩ : BufTy).Contents (Elt Ideal)) :
    val_main_v35 (F := Ideal) x0 x1 x2 x3 x4 x5 x6 x7
      = Cert.Spec.att4 (val_main_v7 (F := Ideal) x0 x2 x3) (val_main_v13 (F := Ideal) x1 x4 x5) (val_main_v19 (F := Ideal) x1 x6 x7) := by
  funext i
  obtain ⟨b, h, l, d, rfl⟩ : ∃ (b : Fin 4) (h : Fin 8) (l : Fin 2048) (d : Fin 64), i = ix4 b h l d :=
    ⟨i 0, i 1, i 2, i 3, eq_ix4 i⟩
  rw [val_main_v35_apply]
  show _ = Cert.Spec.softAtt _ _
  unfold Cert.Spec.softAtt
  refine Finset.sum_congr rfl fun k _ => ?_
  have el : lidx_main_v35 (ix4 b h l d) k = ix4 b h l k :=
    funext fun a => Fin.ext (by match a with | ⟨0, _⟩ => rfl | ⟨1, _⟩ => rfl | ⟨2, _⟩ => rfl | ⟨3, _⟩ => rfl)
  have er : ridx_main_v35 (ix4 b h l d) k = ix4 b h k d :=
    funext fun a => Fin.ext (by match a with | ⟨0, _⟩ => rfl | ⟨1, _⟩ => rfl | ⟨2, _⟩ => rfl | ⟨3, _⟩ => rfl)
  rw [el, er, softmax_apply]

end Cert.ReferenceIdeal.RefAtt

end
-- ==== Proof.SpecReshape.lean ====
/-
  Attention does not see how batch and head are laid out: merging the two leading axes [4, 8] into one axis [32] on
  the three inputs, attending, and splitting the result's leading axis again is attention over the four-axis arrays.
  Row-major position (b, h, l, e) of [4, 8, 2048, 64] is position (8 b + h, l, e) of [32, 2048, 64].
-/
import proofs.«121241_j24678882083069_1_alg».proof.Proof.Spec
import Idealize.ShloMosaic.Lib.Pipeline.Value
import Idealize.ShloMosaic.Lib.ValueLayout

noncomputable section

namespace Cert.Spec

open Idealize.ShloMosaic Idealize.ShloMosaic.ValueIdx

/-- Reading the merged array at (8 b + h, l, e) is reading the four-axis array at (b, h, l, e): both are row-major
    position ((8 b + h) * 2048 + l) * 64 + e. -/
private theorem cast43 (x : (⟨4, ![4, 8, 2048, 64]⟩ : Shape).Idx → EReal)
    (h43 : (⟨4, ![4, 8, 2048, 64]⟩ : Shape).ShapeCasts ⟨3, ![32, 2048, 64]⟩)
    (b : Fin 4) (h : Fin 8) (l : Fin 2048) (e : Fin 64) :
    shapeCast ⟨3, ![32, 2048, 64]⟩ x h43 (ix3 (⟨8 * b.val + h.val, by omega⟩ : Fin 32) l e) = x (ix4 b h l e) :=
  shapeCast_apply x h43 _ _ (by
    rw [Shape.rowMajor_val_four, Shape.rowMajor_val_three]
    show ((b.val * 8 + h.val) * 2048 + l.val) * 64 + e.val = ((8 * b.val + h.val) * 2048 + l.val) * 64 + e.val
    rw [Nat.mul_comm b.val 8])

/-- Reading the split array at (b, h, l, d) is reading the three-axis array at (8 b + h, l, d). -/
private theorem cast34 (y : (⟨3, ![32, 2048, 64]⟩ : Shape).Idx → EReal)
    (h34 : (⟨3, ![32, 2048, 64]⟩ : Shape).ShapeCasts ⟨4, ![4, 8, 2048, 64]⟩)
    (b : Fin 4) (h : Fin 8) (l : Fin 2048) (d : Fin 64) :
    shapeCast ⟨4, ![4, 8, 2048, 64]⟩ y h34 (ix4 b h l d) = y (ix3 (⟨8 * b.val + h.val, by omega⟩ : Fin 32) l d) :=
  shapeCast_apply y h34 _ _ (by
    rw [Shape.rowMajor_val_four, Shape.rowMajor_val_three]
    show ((8 * b.val + h.val) * 2048 + l.val) * 64 + d.val = ((b.val * 8 + h.val) * 2048 + l.val) * 64 + d.val
    rw [Nat.mul_comm b.val 8])

theorem att_reshape (q k v : (⟨4, ![4, 8, 2048, 64]⟩ : Shape).Idx → EReal)
    (h43 : (⟨4, ![4, 8, 2048, 64]⟩ : Shape).ShapeCasts ⟨3, ![32, 2048, 64]⟩)
    (h34 : (⟨3, ![32, 2048, 64]⟩ : Shape).ShapeCasts ⟨4, ![4, 8, 2048, 64]⟩) :
    shapeCast ⟨4, ![4, 8, 2048, 64]⟩
        (att3 (shapeCast ⟨3, ![32, 2048, 64]⟩ q h43) (shapeCast ⟨3, ![32, 2048, 64]⟩ k h43) (shapeCast ⟨3, ![32, 2048, 64]⟩ v h43)) h34
      = att4 q k v := by
  funext i
  obtain ⟨b, h, l, d, rfl⟩ : ∃ (b : Fin 4) (h : Fin 8) (l : Fin 2048) (d : Fin 64), i = ix4 b h l d :=
    ⟨i 0, i 1, i 2, i 3, eq_ix4 i⟩
  rw [cast34]
  -- both sides are one softmax-weighted sum; the scores and the value column agree entry by entry
  show softAtt
      (fun j => (∑ e : Fin 64,
          shapeCast ⟨3, ![32, 2048, 64]⟩ q h43 (ix3 (⟨8 * b.val + h.val, by omega⟩ : Fin 32) l e)
            * shapeCast ⟨3, ![32, 2048, 64]⟩ k h43 (ix3 (⟨8 * b.val + h.val, by omega⟩ : Fin 32) j e)) * scale)
      (fun j => shapeCast ⟨3, ![32, 2048, 64]⟩ v h43 (ix3 (⟨8 * b.val + h.val, by omega⟩ : Fin 32) j d))
    = softAtt (fun j => (∑ e : Fin 64, q (ix4 b h l e) * k (ix4 b h j e)) * scale) (fun j => v (ix4 b h j d))
  simp only [cast43]

end Cert.Spec

end
-- ==== Proof.Chain.lean ====
/-
  The result buffer of the idealized kernel program, followed back through @main to the arguments, and met with the
  reference's result.

  After the run the result buffer holds what the last host stretch leaves: the attention region's output array
  split into [batch, head, position, feature], heads moved behind positions, merged to [batch, position, model] and
  transposed to [batch, model, position]. The attention region's output is `Spec.att3` of the arrays it was entered
  with, which the middle host stretch made from the projection region's three outputs by splitting the model axis into
  heads, moving heads in front of positions and merging batch with head; and each projection output is `Spec.proj` of
  the transposed activations, the transposed weight and the bias, which the first host stretch made from the arguments.
  Merging batch and head around attention changes nothing (`Spec.att_reshape`), so the result is the outer layout
  chain of `Spec.att4` of the head-split projections: exactly how the reference's stages compose
  (`RefAtt.ref_att`, `RefProj.ref_q` / `ref_k` / `ref_v`).
-/
import proofs.«121241_j24678882083069_1_alg».proof.Proof.RunMain
import proofs.«121241_j24678882083069_1_alg».proof.Proof.R0Value
import proofs.«121241_j24678882083069_1_alg».proof.Proof.R1Value
import proofs.«121241_j24678882083069_1_alg».proof.Proof.RefProj
import proofs.«121241_j24678882083069_1_alg».proof.Proof.RefAtt
import proofs.«121241_j24678882083069_1_alg».proof.Proof.SpecReshape
import proofs.«121241_j24678882083069_1_alg».proof.Proof.Gen.ReferenceIdeal.Read
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

/-! ## What the projection region is entered with -/

theorem entry0_a1 (c : Dev nD) :
    V1 m ρ c main_v0 = transpose S4x2048x512 [0, 2, 1] (m ((c : Thread nD τ).loc main_arg0)) transposes_S4x512x2048_S4x2048x512_0_2_1 := by
  show StableHlo.after hostOps0 (W0 m ρ c) (Proc.devRef .tc main_v0) = _
  after_results
theorem entry0_a2 (c : Dev nD) :
    V1 m ρ c main_v1 = transpose S4x2048x512 [0, 2, 1] (m ((c : Thread nD τ).loc main_arg1)) transposes_S4x512x2048_S4x2048x512_0_2_1 := by
  show StableHlo.after hostOps0 (W0 m ρ c) (Proc.devRef .tc main_v1) = _
  after_results
theorem entry0_wq (c : Dev nD) :
    V1 m ρ c main_v2 = transpose S512x512 [1, 0] (m ((c : Thread nD τ).loc main_arg2)) transposes_S512x512_S512x512_1_0 := by
  show StableHlo.after hostOps0 (W0 m ρ c) (Proc.devRef .tc main_v2) = _
  after_results
theorem entry0_wk (c : Dev nD) :
    V1 m ρ c main_v3 = transpose S512x512 [1, 0] (m ((c : Thread nD τ).loc main_arg4)) transposes_S512x512_S512x512_1_0 := by
  show StableHlo.after hostOps0 (W0 m ρ c) (Proc.devRef .tc main_v3) = _
  after_results
theorem entry0_wv (c : Dev nD) :
    V1 m ρ c main_v4 = transpose S512x512 [1, 0] (m ((c : Thread nD τ).loc main_arg6)) transposes_S512x512_S512x512_1_0 := by
  show StableHlo.after hostOps0 (W0 m ρ c) (Proc.devRef .tc main_v4) = _
  after_results
theorem entry0_bq (c : Dev nD) : V1 m ρ c main_arg3 = (m ((c : Thread nD τ).loc main_arg3)) := by
  show StableHlo.after hostOps0 (W0 m ρ c) (Proc.devRef .tc main_arg3) = _
  after_results
theorem entry0_bk (c : Dev nD) : V1 m ρ c main_arg5 = (m ((c : Thread nD τ).loc main_arg5)) := by
  show StableHlo.after hostOps0 (W0 m ρ c) (Proc.devRef .tc main_arg5) = _
  after_results
theorem entry0_bv (c : Dev nD) : V1 m ρ c main_arg7 = (m ((c : Thread nD τ).loc main_arg7)) := by
  show StableHlo.after hostOps0 (W0 m ρ c) (Proc.devRef .tc main_arg7) = _
  after_results

/-! ## What the projection region leaves -/

theorem left0_q (c : Dev nD) :
    W2 m ρ c (Proc.devRef .tc main_v5_0) = Cert.Spec.proj (V1 m ρ c main_v0) (V1 m ρ c main_v2) (V1 m ρ c main_arg3) :=
  (W2_arr m ρ c 8).trans (R0Value.arr_q (V1 m ρ) c)
theorem left0_k (c : Dev nD) :
    W2 m ρ c (Proc.devRef .tc main_v5_1) = Cert.Spec.proj (V1 m ρ c main_v1) (V1 m ρ c main_v3) (V1 m ρ c main_arg5) :=
  (W2_arr m ρ c 9).trans (R0Value.arr_k (V1 m ρ) c)
theorem left0_v (c : Dev nD) :
    W2 m ρ c (Proc.devRef .tc main_v5_2) = Cert.Spec.proj (V1 m ρ c main_v1) (V1 m ρ c main_v4) (V1 m ρ c main_arg7) :=
  (W2_arr m ρ c 10).trans (R0Value.arr_v (V1 m ρ) c)

/-! ## What the attention region is entered with -/

/-- Split the model axis into heads, move heads in front of positions, merge batch with head. -/
def heads3 (x : S4x2048x512.Idx → EReal) : S32x2048x64.Idx → EReal :=
  shapeCast S32x2048x64 (transpose S4x8x2048x64 [0, 2, 1, 3] (shapeCast S4x2048x8x64 x shapeCasts_S4x2048x512_S4x2048x8x64)
    transposes_S4x2048x8x64_S4x8x2048x64_0_2_1_3) shapeCasts_S4x8x2048x64_S32x2048x64

theorem entry1_q (c : Dev nD) : V3 m ρ c main_v12 = heads3 (W2 m ρ c (Proc.devRef .tc main_v5_0)) := by
  show StableHlo.after hostOps1 (W2 m ρ c) (Proc.devRef .tc main_v12) = _
  after_results
  rfl
theorem entry1_k (c : Dev nD) : V3 m ρ c main_v13 = heads3 (W2 m ρ c (Proc.devRef .tc main_v5_1)) := by
  show StableHlo.after hostOps1 (W2 m ρ c) (Proc.devRef .tc main_v13) = _
  after_results
  rfl
theorem entry1_v (c : Dev nD) : V3 m ρ c main_v14 = heads3 (W2 m ρ c (Proc.devRef .tc main_v5_2)) := by
  show StableHlo.after hostOps1 (W2 m ρ c) (Proc.devRef .tc main_v14) = _
  after_results
  rfl

/-! ## What the attention region leaves -/

theorem left1_o (c : Dev nD) :
    W4 m ρ c (Proc.devRef .tc main_v15) = Cert.Spec.att3 (V3 m ρ c main_v12) (V3 m ρ c main_v13) (V3 m ρ c main_v14) :=
  (W4_arr m ρ c 3).trans (R1Value.arr_o (V3 m ρ) c)

/-! ## The result buffer -/

/-- Heads moved behind positions, merged to the model axis, the model axis moved in front of positions. -/
def unheads (y : S4x8x2048x64.Idx → EReal) : S4x512x2048.Idx → EReal :=
  transpose S4x512x2048 [0, 2, 1] (shapeCast S4x2048x512 (transpose S4x2048x8x64 [0, 2, 1, 3] y transposes_S4x8x2048x64_S4x2048x8x64_0_2_1_3)
    shapeCasts_S4x2048x8x64_S4x2048x512) transposes_S4x2048x512_S4x512x2048_0_2_1

theorem result_arr (c : Dev nD) :
    W5 m ρ c (Proc.devRef .tc main_v19)
      = unheads (shapeCast S4x8x2048x64 (W4 m ρ c (Proc.devRef .tc main_v15)) shapeCasts_S32x2048x64_S4x8x2048x64) := by
  show StableHlo.after hostOps2 (W4 m ρ c) (Proc.devRef .tc main_v19) = _
  after_results
  rfl

/-! ## The result, met with the reference's -/

/-- The result buffer after the run is the reference's last stage of the arguments: the same outer layout chain of the
    same attention of the same three head-split linear layers. -/
theorem kernel_value (c : Dev nD) :
    W5 m ρ c (Proc.devRef .tc main_v19)
      = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [result_arr, left1_o, entry1_q, entry1_k, entry1_v, left0_q, left0_k, left0_v,
    entry0_a1, entry0_a2, entry0_wq, entry0_wk, entry0_wv, entry0_bq, entry0_bk, entry0_bv]
  unfold heads3
  rw [Cert.Spec.att_reshape]
  unfold Cert.ReferenceIdeal.Read.val_main_v38 Cert.ReferenceIdeal.Read.val_main_v37 Cert.ReferenceIdeal.Read.val_main_v36
  rw [Cert.ReferenceIdeal.RefAtt.ref_att]
  unfold Cert.ReferenceIdeal.Read.val_main_v7 Cert.ReferenceIdeal.Read.val_main_v6 Cert.ReferenceIdeal.Read.val_main_v13 Cert.ReferenceIdeal.Read.val_main_v12 Cert.ReferenceIdeal.Read.val_main_v19 Cert.ReferenceIdeal.Read.val_main_v18
  rw [Cert.ReferenceIdeal.RefProj.ref_q _ _ _ transposes_S512x512_S512x512_1_0,
    Cert.ReferenceIdeal.RefProj.ref_k _ _ _ transposes_S512x512_S512x512_1_0,
    Cert.ReferenceIdeal.RefProj.ref_v _ _ _ transposes_S512x512_S512x512_1_0]
  unfold Cert.ReferenceIdeal.Read.val_main_v0 Cert.ReferenceIdeal.Read.val_main_v1
  rfl

end Cert.KernelIdeal.Chain

end
-- ==== Proof.lean ====
/-
  The kernel computes multi-head attention over two [4, 512, 2048] inputs in two pallas_calls: three linear layers
  (activations transposed to [4, 2048, 512], times the transposed 512 x 512 weight, plus the bias), then, per
  (batch, head) slab, softmax(q kᵀ · 0.125) v with the softmax taken over all 2048 keys at once; host operations
  between and after the calls split and merge the head axis. The reference computes the same with einsums and
  divides the scores by sqrt 64.

  Over the extended reals the two agree entry by entry with no condition on the inputs: format changes are the
  identity, a matrix product into a zero accumulator and a dot_general are the same finite sum, the lane maximum and
  the lane sum are the host's reductions over the same index set, and dividing by sqrt 64 is multiplying by 1/8 on
  every extended real (Proof/Spec.lean). Both runs therefore end at the reference's last stage read as a function of
  the arguments (`Cert.ReferenceIdeal.Read.val_main_v38`): the reference by its own run, the kernel program by
  following its result buffer back through the host stretches and the two regions (Proof/Chain.lean, over
  Proof/R0Value.lean and Proof/R1Value.lean for what each region leaves in its arrays).

  The frames of the two kernel programs are the generated frame certificates; the reference's frame is its run with
  the result dropped; the idealization rewrote nothing, so `preserves` is trivial.
-/
import proofs.«121241_j24678882083069_1_alg».proof.Defs
import proofs.«121241_j24678882083069_1_alg».proof.Proof.Gen.Kernel
import proofs.«121241_j24678882083069_1_alg».proof.Proof.Gen.Kernel.Skeleton
import proofs.«121241_j24678882083069_1_alg».proof.Proof.Gen.Kernel.Launch
import proofs.«121241_j24678882083069_1_alg».proof.Proof.Gen.Kernel.Points
import proofs.«121241_j24678882083069_1_alg».proof.Proof.Gen.Kernel.Frame
import proofs.«121241_j24678882083069_1_alg».proof.Proof.Gen.KernelIdeal
import proofs.«121241_j24678882083069_1_alg».proof.Proof.Gen.KernelIdeal.Skeleton
import proofs.«121241_j24678882083069_1_alg».proof.Proof.Gen.KernelIdeal.Launch
import proofs.«121241_j24678882083069_1_alg».proof.Proof.Gen.KernelIdeal.Points
import proofs.«121241_j24678882083069_1_alg».proof.Proof.Gen.KernelIdeal.Frame
import proofs.«121241_j24678882083069_1_alg».proof.Proof.Gen.ReferenceIdeal
import proofs.«121241_j24678882083069_1_alg».proof.Proof.Gen.Pre_finite_inputs
import proofs.«121241_j24678882083069_1_alg».proof.Proof.Gen.ReferenceIdeal.Run
import proofs.«121241_j24678882083069_1_alg».proof.Proof.Gen.ReferenceIdeal.Read
import proofs.«121241_j24678882083069_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the reference's last stage of the (agreeing) arguments. -/
theorem algebraic : Cert.algebraic_KernelIdeal_ReferenceIdeal := by
  intro m ρ m' ρ' _ hagree
  refine ⟨fun c => Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Gen.mem_uc Cert.KernelIdeal.main_v19 (by decide))).trans (Cert.KernelIdeal.Chain.kernel_value m ρ c),
       (h c _ (Cert.KernelIdeal.Gen.mem_uc Cert.KernelIdeal.main_arg0 (by decide))).trans (Cert.KernelIdeal.Gen.W5_main_arg0 m ρ c),
       (h c _ (Cert.KernelIdeal.Gen.mem_uc Cert.KernelIdeal.main_arg1 (by decide))).trans (Cert.KernelIdeal.Gen.W5_main_arg1 m ρ c),
       (h c _ (Cert.KernelIdeal.Gen.mem_uc Cert.KernelIdeal.main_arg2 (by decide))).trans (Cert.KernelIdeal.Gen.W5_main_arg2 m ρ c),
       (h c _ (Cert.KernelIdeal.Gen.mem_uc Cert.KernelIdeal.main_arg3 (by decide))).trans (Cert.KernelIdeal.Gen.W5_main_arg3 m ρ c),
       (h c _ (Cert.KernelIdeal.Gen.mem_uc Cert.KernelIdeal.main_arg4 (by decide))).trans (Cert.KernelIdeal.Gen.W5_main_arg4 m ρ c),
       (h c _ (Cert.KernelIdeal.Gen.mem_uc Cert.KernelIdeal.main_arg5 (by decide))).trans (Cert.KernelIdeal.Gen.W5_main_arg5 m ρ c),
       (h c _ (Cert.KernelIdeal.Gen.mem_uc Cert.KernelIdeal.main_arg6 (by decide))).trans (Cert.KernelIdeal.Gen.W5_main_arg6 m ρ c),
       (h c _ (Cert.KernelIdeal.Gen.mem_uc Cert.KernelIdeal.main_arg7 (by decide))).trans (Cert.KernelIdeal.Gen.W5_main_arg7 m ρ c)⟩)
      (Cert.KernelIdeal.GenRun.run_all m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v38_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
